-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S64x32 .f32) (main_arg10 : FVec F S32 .f32) (main_arg11 : FVec F S32x1 .f32) (main_arg12 : FVec F S1 .f32) (main_v33 : IVec S_ 1) : IVec S_ 1 :=
  let main_v34 : FVec F S64x32 .f32 := Host.absf main_arg9
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x1 .f32 := Host.absf main_arg11
  let main_cst_16 : FVec F S_ .f32 := constant S_ .f32 0x7F800000#32
  let main_v45 : FVec F S32x1 .f32 := broadcastInDim S32x1 ![] bcast_S_S32x1 main_cst_16
  let main_v46 : IVec S32x1 1 := cmpf .olt main_v44 main_v45
  let main_c_17 : IVec S_ 1 := constantI S_ 1 1#1
  let main_v47 : IVec S_ 1 := (fun x v => Host.reduce IntOp.andi x v reducesTo_S32x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S64 .f32) (main_arg7 : FVec F S128x64 .f32) (main_arg8 : FVec F S64 .f32) (main_arg9 : FVec F S64x32 .f32) (main_arg10 : FVec F S32 .f32) (main_arg11 : FVec F S32x1 .f32) (main_arg12 : FVec F S1 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x64 .f32) (main_arg6 : FVec F S64 .f32) (main_arg7 : FVec F S128x64 .f32) (main_arg8 : FVec F S64 .f32) (main_arg9 : FVec F S64x32 .f32) (main_arg10 : FVec F S32 .f32) (main_arg11 : FVec F S32x1 .f32) (main_arg12 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S10000x128 : Shape := ⟨2, ![10000, 128]⟩
abbrev S1600000x128 : Shape := ⟨2, ![1600000, 128]⟩
abbrev S1x128 : Shape := ⟨2, ![1, 128]⟩
abbrev S100000x64 : Shape := ⟨2, ![100000, 64]⟩
abbrev S10000x64 : Shape := ⟨2, ![10000, 64]⟩
abbrev S1600000x64 : Shape := ⟨2, ![1600000, 64]⟩
abbrev S1x64 : Shape := ⟨2, ![1, 64]⟩
abbrev S1x32 : Shape := ⟨2, ![1, 32]⟩
abbrev S1x1 : Shape := ⟨2, ![1, 1]⟩
abbrev S8000x128 : Shape := ⟨2, ![8000, 128]⟩
abbrev S8000x1 : Shape := ⟨2, ![8000, 1]⟩
abbrev S8000x64 : Shape := ⟨2, ![8000, 64]⟩
abbrev S8000x32 : Shape := ⟨2, ![8000, 32]⟩

abbrev nBuf : Space → Nat
  | .hbm => 111
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S64x32, .f32⟩
  | .hbm, ⟨10, _⟩ => ⟨S32, .f32⟩
  | .hbm, ⟨11, _⟩ => ⟨S32x1, .f32⟩
  | .hbm, ⟨12, _⟩ => ⟨S1, .f32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S1600000x1, .i32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .bf16⟩
  | .hbm, ⟨38, _⟩ => ⟨S128x128, .bf16⟩
  | .hbm, ⟨39, _⟩ => ⟨S100000x128, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S_, .f32⟩
  | .hbm, ⟨50, _⟩ => ⟨S100000x128, .f32⟩
  | .hbm, ⟨51, _⟩ => ⟨S1600000x1, .i32⟩
  | .hbm, ⟨52, _⟩ => ⟨S100000x128, .f32⟩
  | .hbm, ⟨53, _⟩ => ⟨S100000x128, .f32⟩
  | .hbm, ⟨54, _⟩ => ⟨S100000x128, .f32⟩
  | .hbm, ⟨55, _⟩ => ⟨S1x128, .f32⟩
  | .hbm, ⟨56, _⟩ => ⟨S100000x128, .f32⟩
  | .hbm, ⟨57, _⟩ => ⟨S100000x128, .f32⟩
  | .hbm, ⟨58, _⟩ => ⟨S_, .f32⟩
  | .hbm, ⟨59, _⟩ => ⟨S100000x128, .f32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S100000x128, .bf16⟩
  | .hbm, ⟨64, _⟩ => ⟨S128x64, .bf16⟩
  | .hbm, ⟨65, _⟩ => ⟨S100000x64, .f32⟩
  | .hbm, ⟨66, _⟩ => ⟨S_, .i32⟩
  | .hbm, ⟨67, _⟩ => ⟨S1600000, .i32⟩
  | .hbm, ⟨68, _⟩ => ⟨S1600000, .i1⟩
  | .hbm, ⟨69, _⟩ => ⟨S_, .i32⟩
  | .hbm, ⟨70, _⟩ => ⟨S1600000, .i32⟩
  | .hbm, ⟨71, _⟩ => ⟨S1600000, .i32⟩
  | .hbm, ⟨72, _⟩ => ⟨S1600000, .i32⟩
  | .hbm, ⟨73, _⟩ => ⟨S1600000x1, .i32⟩
  | .hbm, ⟨74, _⟩ => ⟨S1600000x64, .f32⟩
  | .hbm, ⟨75, _⟩ => ⟨S_, .f32⟩
  | .hbm, ⟨76, _⟩ => ⟨S100000x64, .f32⟩
  | .hbm, ⟨77, _⟩ => ⟨S1600000x1, .i32⟩
  | .hbm, ⟨78, _⟩ => ⟨S100000x64, .f32⟩
  | .hbm, ⟨79, _⟩ => ⟨S100000x64, .f32⟩
  | .hbm, ⟨80, _⟩ => ⟨S100000x64, .f32⟩
  | .hbm, ⟨81, _⟩ => ⟨S1x64, .f32⟩
  | .hbm, ⟨82, _⟩ => ⟨S100000x64, .f32⟩
  | .hbm, ⟨83, _⟩ => ⟨S100000x64, .f32⟩
  | .hbm, ⟨84, _⟩ => ⟨S_, .i32⟩
  | .hbm, ⟨85, _⟩ => ⟨S1600000, .i32⟩
  | .hbm, ⟨86, _⟩ => ⟨S1600000, .i1⟩
  | .hbm, ⟨87, _⟩ => ⟨S_, .i32⟩
  | .hbm, ⟨88, _⟩ => ⟨S1600000, .i32⟩
  | .hbm, ⟨89, _⟩ => ⟨S1600000, .i32⟩
  | .hbm, ⟨90, _⟩ => ⟨S1600000, .i32⟩
  | .hbm, ⟨91, _⟩ => ⟨S1600000x1, .i32⟩
  | .hbm, ⟨92, _⟩ => ⟨S1600000x64, .f32⟩
  | .hbm, ⟨93, _⟩ => ⟨S_, .i32⟩
  | .hbm, ⟨94, _⟩ => ⟨S1600000, .i32⟩
  | .hbm, ⟨95, _⟩ => ⟨S1600000, .i1⟩
  | .hbm, ⟨96, _⟩ => ⟨S_, .i32⟩
  | .hbm, ⟨97, _⟩ => ⟨S1600000, .i32⟩
  | .hbm, ⟨98, _⟩ => ⟨S1600000, .i32⟩
  | .hbm, ⟨99, _⟩ => ⟨S1600000, .i32⟩
  | .hbm, ⟨100, _⟩ => ⟨S1600000x1, .i32⟩
  | .hbm, ⟨101, _⟩ => ⟨S1600000x64, .f32⟩
  | .hbm, ⟨102, _⟩ => ⟨S1600000x128, .f32⟩
  | .hbm, ⟨103, _⟩ => ⟨S1600000x128, .bf16⟩
  | .hbm, ⟨104, _⟩ => ⟨S128x64, .bf16⟩
  | .hbm, ⟨105, _⟩ => ⟨S64x32, .bf16⟩
  | .hbm, ⟨106, _⟩ => ⟨S32x1, .bf16⟩
  | .hbm, ⟨107, _⟩ => ⟨S1x64, .f32⟩
  | .hbm, ⟨108, _⟩ => ⟨S1x32, .f32⟩
  | .hbm, ⟨109, _⟩ => ⟨S1x1, .f32⟩
  | .hbm, ⟨110, _⟩ => ⟨S1600000x1, .f32⟩
  | .local _ .vmem, ⟨0, _⟩ => ⟨S10000x128, .bf16⟩
  | .local _ .vmem, ⟨1, _⟩ => ⟨S10000x128, .bf16⟩
  | .local _ .vmem, ⟨2, _⟩ => ⟨S128x128, .bf16⟩
  | .local _ .vmem, ⟨3, _⟩ => ⟨S10000x128, .f32⟩
  | .local _ .vmem, ⟨4, _⟩ => ⟨S10000x128, .f32⟩
  | .local _ .vmem, ⟨5, _⟩ => ⟨S10000x128, .bf16⟩
  | .local _ .vmem, ⟨6, _⟩ => ⟨S10000x128, .bf16⟩
  | .local _ .vmem, ⟨7, _⟩ => ⟨S128x64, .bf16⟩
  | .local _ .vmem, ⟨8, _⟩ => ⟨S10000x64, .f32⟩
  | .local _ .vmem, ⟨9, _⟩ => ⟨S10000x64, .f32⟩
  | .local _ .vmem, ⟨10, _⟩ => ⟨S8000x128, .bf16⟩
  | .local _ .vmem, ⟨11, _⟩ => ⟨S8000x128, .bf16⟩
  | .local _ .vmem, ⟨12, _⟩ => ⟨S128x64, .bf16⟩
  | .local _ .vmem, ⟨13, _⟩ => ⟨S1x64, .f32⟩
  | .local _ .vmem, ⟨14, _⟩ => ⟨S64x32, .bf16⟩
  | .local _ .vmem, ⟨15, _⟩ => ⟨S1x32, .f32⟩
  | .local _ .vmem, ⟨16, _⟩ => ⟨S32x1, .bf16⟩
  | .local _ .vmem, ⟨17, _⟩ => ⟨S1x1, .f32⟩
  | .local _ .vmem, ⟨18, _⟩ => ⟨S8000x1, .f32⟩
  | .local _ .vmem, ⟨19, _⟩ => ⟨S8000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v4 : Ref sig .tc := ⟨.hbm, 22, rfl⟩
abbrev main_cst_2 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_3 : Ref sig .tc := ⟨.hbm, 27, rfl⟩
abbrev main_call1_v0 : Ref sig .tc := ⟨.hbm, 28, rfl⟩
abbrev main_call1_v1 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_c : Ref sig .tc := ⟨.hbm, 40, rfl⟩
abbrev main_v18 : Ref sig .tc := ⟨.hbm, 41, rfl⟩
abbrev main_v19 : Ref sig .tc := ⟨.hbm, 42, rfl⟩
abbrev main_c_4 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_5 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_call2_cst : Ref sig .tc := ⟨.hbm, 58, rfl⟩
abbrev main_call2_v0 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_c_6 : Ref sig .tc := ⟨.hbm, 66, rfl⟩
abbrev main_v39 : Ref sig .tc := ⟨.hbm, 67, rfl⟩
abbrev main_v40 : Ref sig .tc := ⟨.hbm, 68, rfl⟩
abbrev main_c_7 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_8 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_c_9 : Ref sig .tc := ⟨.hbm, 84, rfl⟩
abbrev main_v54 : Ref sig .tc := ⟨.hbm, 85, rfl⟩
abbrev main_v55 : Ref sig .tc := ⟨.hbm, 86, rfl⟩
abbrev main_c_10 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_c_11 : Ref sig .tc := ⟨.hbm, 93, rfl⟩
abbrev main_v61 : Ref sig .tc := ⟨.hbm, 94, rfl⟩
abbrev main_v62 : Ref sig .tc := ⟨.hbm, 95, rfl⟩
abbrev main_c_12 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg7_0 : Ref sig .tc := ⟨.vmem, 18, rfl⟩
abbrev cc2_stg7_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem7_0 : DmaSem sig := 18
abbrev cc2_sem7_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x32 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S32x1 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S8000x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S10000x64_S10000x64_0_0 : ∀ a, (![0, 0] : Fin 2 → Nat) a + S10000x64.size a ≤ S10000x64.size a
  h_S10000x64 : 0 < S10000x64.numel
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  concatenates_S1600000x64_S1600000x64_S1600000x128_d1 : Shape.Concatenates [S1600000x64, S1600000x64] S1600000x128 1
  shapeCasts_S64_S1x64 : S64.ShapeCasts S1x64
  shapeCasts_S32_S1x32 : S32.ShapeCasts S1x32
  shapeCasts_S1_S1x1 : S1.ShapeCasts S1x1
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S8000x32 : S1x32.Broadcasts S8000x32
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8000x1 : S1x1.Broadcasts S8000x1
  inb_S8000x1_S8000x1_0_0 : ∀ a, (![0, 0] : Fin 2 → Nat) a + S8000x1.size a ≤ S8000x1.size a
  h_S8000x1 : 0 < S8000x1.numel
  scatter_S100000_S1600000x1_S1600000_n_0_0_1_wf : ScatterDims.WF S100000 S1600000x1 S1600000 [] [0] [0] 1
  dot_S10000x128_S128x128_S10000x128_1_0_0_1_n_n_wf : DotDims.WF S10000x128 S128x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S8000x128_S128x64_S8000x64_1_0_0_1_n_n_wf : DotDims.WF S8000x128 S128x64 S8000x64 [1] [0] [0] [1] [] []
  dot_S8000x64_S64x32_S8000x32_1_0_0_1_n_n_wf : DotDims.WF S8000x64 S64x32 S8000x32 [1] [0] [0] [1] [] []
  dot_S8000x32_S32x1_S8000x1_1_0_0_1_n_n_wf : DotDims.WF S8000x32 S32x1 S8000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .bf16 = 32 ∨ (Rect.block (s := S100000x128) S10000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .bf16 = 32 ∨ (Rect.block (s := S100000x128) S10000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .bf16 = 32 ∨ (Rect.block (s := S128x64) S128x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x128.size a ≤ S1600000x128.size a
  hwx2_0 : ∀ i : grid2.Coords, EltTy.bits .bf16 = 32 ∨ (Rect.block (s := S1600000x128) S8000x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .bf16 = 32 ∨ (Rect.block (s := S128x64) S128x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x32.size a ≤ S64x32.size a
  hwx2_3 : ∀ i : grid2.Coords, EltTy.bits .bf16 = 32 ∨ (Rect.block (s := S64x32) S64x32.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S32x1.size a ≤ S32x1.size a
  hwx2_5 : ∀ i : grid2.Coords, EltTy.bits .bf16 = 32 ∨ (Rect.block (s := S32x1) S32x1.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1.size a ≤ S1x1.size a
  hwx2_6 : ∀ i : grid2.Coords, EltTy.bits .f32 = 32 ∨ (Rect.block (s := S1x1) S1x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S8000x1.size a ≤ S1600000x1.size a
  hwx2_7 : ∀ i : grid2.Coords, EltTy.bits .f32 = 32 ∨ (Rect.block (s := S1600000x1) S8000x1.size (cc2_transform_7 i) (hinb2_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S8000x128_S128x64_S8000x64_1_0_0_1_n_n : DotDims S8000x128 S128x64 S8000x64 where
  lhsContracting := [1]
  rhsContracting := [0]
  lhsNonContracting := [0]
  rhsNonContracting := [1]
  lhsBatch := []
  rhsBatch := []
  wf := dot_S8000x128_S128x64_S8000x64_1_0_0_1_n_n_wf
def dot_S8000x64_S64x32_S8000x32_1_0_0_1_n_n : DotDims S8000x64 S64x32 S8000x32 where
  lhsContracting := [1]
  rhsContracting := [0]
  lhsNonContracting := [0]
  rhsNonContracting := [1]
  lhsBatch := []
  rhsBatch := []
  wf := dot_S8000x64_S64x32_S8000x32_1_0_0_1_n_n_wf
def dot_S8000x32_S32x1_S8000x1_1_0_0_1_n_n : DotDims S8000x32 S32x1 S8000x1 where
  lhsContracting := [1]
  rhsContracting := [0]
  lhsNonContracting := [0]
  rhsNonContracting := [1]
  lhsBatch := []
  rhsBatch := []
  wf := dot_S8000x32_S32x1_S8000x1_1_0_0_1_n_n_wf

abbrev win0_0 : Pipeline.Window sig grid0 :=
  Pipeline.Window.ofSpec (Memref.whole main_v15) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v36) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v38) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v69) S8000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v70) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v73) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v71) S64x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v74) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v72) S32x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v75) S1x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v76) S8000x1.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩
abbrev S1600000x32 : Shape := ⟨2, ![1600000, 32]⟩
abbrev S1x32 : Shape := ⟨2, ![1, 32]⟩
abbrev S1x1 : Shape := ⟨2, ![1, 1]⟩

abbrev nBuf : Space → Nat
  | .hbm => 147
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S128x128, .f32⟩
  | 4 => ⟨S128, .f32⟩
  | 5 => ⟨S128x64, .f32⟩
  | 6 => ⟨S64, .f32⟩
  | 7 => ⟨S128x64, .f32⟩
  | 8 => ⟨S64, .f32⟩
  | 9 => ⟨S64x32, .f32⟩
  | 10 => ⟨S32, .f32⟩
  | 11 => ⟨S32x1, .f32⟩
  | 12 => ⟨S1, .f32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S_, .f32⟩
  | 21 => ⟨S100000, .f32⟩
  | 22 => ⟨S100000, .f32⟩
  | 23 => ⟨S_, .f32⟩
  | 24 => ⟨S100000, .f32⟩
  | 25 => ⟨S1600000x1, .i32⟩
  | 26 => ⟨S100000, .f32⟩
  | 27 => ⟨S_, .f32⟩
  | 28 => ⟨S_, .f32⟩
  | 29 => ⟨S100000, .f32⟩
  | 30 => ⟨S100000, .f32⟩
  | 31 => ⟨S100000, .f32⟩
  | 32 => ⟨S100000x1, .f32⟩
  | 33 => ⟨S100000x128, .f32⟩
  | 34 => ⟨S100000x128, .f32⟩
  | 35 => ⟨S100000x128, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000x128, .f32⟩
  | 45 => ⟨S_, .f32⟩
  | 46 => ⟨S100000x128, .f32⟩
  | 47 => ⟨S1600000x1, .i32⟩
  | 48 => ⟨S100000x128, .f32⟩
  | 49 => ⟨S100000, .f32⟩
  | 50 => ⟨S100000x1, .f32⟩
  | 51 => ⟨S100000x128, .f32⟩
  | 52 => ⟨S100000x128, .f32⟩
  | 53 => ⟨S1x128, .f32⟩
  | 54 => ⟨S100000x128, .f32⟩
  | 55 => ⟨S100000x128, .f32⟩
  | 56 => ⟨S_, .f32⟩
  | 57 => ⟨S100000x128, .f32⟩
  | 58 => ⟨S100000x128, .f32⟩
  | 59 => ⟨S_, .f32⟩
  | 60 => ⟨S1600000, .f32⟩
  | 61 => ⟨S_, .f32⟩
  | 62 => ⟨S100000, .f32⟩
  | 63 => ⟨S1600000x1, .i32⟩
  | 64 => ⟨S100000, .f32⟩
  | 65 => ⟨S_, .f32⟩
  | 66 => ⟨S_, .f32⟩
  | 67 => ⟨S100000, .f32⟩
  | 68 => ⟨S100000, .f32⟩
  | 69 => ⟨S_, .f32⟩
  | 70 => ⟨S100000, .f32⟩
  | 71 => ⟨S1600000x1, .i32⟩
  | 72 => ⟨S100000, .f32⟩
  | 73 => ⟨S_, .f32⟩
  | 74 => ⟨S_, .f32⟩
  | 75 => ⟨S100000, .f32⟩
  | 76 => ⟨S100000, .f32⟩
  | 77 => ⟨S100000, .f32⟩
  | 78 => ⟨S100000x1, .f32⟩
  | 79 => ⟨S100000x128, .f32⟩
  | 80 => ⟨S100000x128, .f32⟩
  | 81 => ⟨S100000x64, .f32⟩
  | 82 => ⟨S_, .i32⟩
  | 83 => ⟨S1600000, .i32⟩
  | 84 => ⟨S1600000, .i1⟩
  | 85 => ⟨S_, .i32⟩
  | 86 => ⟨S1600000, .i32⟩
  | 87 => ⟨S1600000, .i32⟩
  | 88 => ⟨S1600000, .i32⟩
  | 89 => ⟨S1600000x1, .i32⟩
  | 90 => ⟨S1600000x64, .f32⟩
  | 91 => ⟨S_, .f32⟩
  | 92 => ⟨S100000x64, .f32⟩
  | 93 => ⟨S1600000x1, .i32⟩
  | 94 => ⟨S100000x64, .f32⟩
  | 95 => ⟨S100000, .f32⟩
  | 96 => ⟨S100000x1, .f32⟩
  | 97 => ⟨S100000x64, .f32⟩
  | 98 => ⟨S100000x64, .f32⟩
  | 99 => ⟨S1x64, .f32⟩
  | 100 => ⟨S100000x64, .f32⟩
  | 101 => ⟨S100000x64, .f32⟩
  | 102 => ⟨S_, .i32⟩
  | 103 => ⟨S1600000, .i32⟩
  | 104 => ⟨S1600000, .i1⟩
  | 105 => ⟨S_, .i32⟩
  | 106 => ⟨S1600000, .i32⟩
  | 107 => ⟨S1600000, .i32⟩
  | 108 => ⟨S1600000, .i32⟩
  | 109 => ⟨S1600000x1, .i32⟩
  | 110 => ⟨S1600000x64, .f32⟩
  | 111 => ⟨S_, .i32⟩
  | 112 => ⟨S1600000, .i32⟩
  | 113 => ⟨S1600000, .i1⟩
  | 114 => ⟨S_, .i32⟩
  | 115 => ⟨S1600000, .i32⟩
  | 116 => ⟨S1600000, .i32⟩
  | 117 => ⟨S1600000, .i32⟩
  | 118 => ⟨S1600000x1, .i32⟩
  | 119 => ⟨S1600000x64, .f32⟩
  | 120 => ⟨S1600000x128, .f32⟩
  | 121 => ⟨S1600000x64, .f32⟩
  | 122 => ⟨S1x64, .f32⟩
  | 123 => ⟨S1600000x64, .f32⟩
  | 124 => ⟨S1600000x64, .f32⟩
  | 125 => ⟨S_, .f32⟩
  | 126 => ⟨S1600000x64, .f32⟩
  | 127 => ⟨S1600000x64, .f32⟩
  | _ => ⟨S100000x128, .f32⟩

abbrev hbmTy0_1 (i : Nat) : BufTy := match i % 128 with
  | 0 => ⟨S1600000x32, .f32⟩
  | 1 => ⟨S1x32, .f32⟩
  | 2 => ⟨S1600000x32, .f32⟩
  | 3 => ⟨S1600000x32, .f32⟩
  | 4 => ⟨S_, .f32⟩
  | 5 => ⟨S1600000x32, .f32⟩
  | 6 => ⟨S1600000x32, .f32⟩
  | 7 => ⟨S1600000x1, .f32⟩
  | 8 => ⟨S1x1, .f32⟩
  | 9 => ⟨S1600000x1, .f32⟩
  | 10 => ⟨S1600000x1, .f32⟩
  | 11 => ⟨S1600000x1, .f32⟩
  | 12 => ⟨S1600000x1, .f32⟩
  | 13 => ⟨S_, .f32⟩
  | 14 => ⟨S1600000x1, .f32⟩
  | 15 => ⟨S1600000x1, .f32⟩
  | 16 => ⟨S_, .f32⟩
  | 17 => ⟨S1600000x1, .f32⟩
  | 18 => ⟨S1600000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v4 : Ref sig .tc := ⟨.hbm, 22, rfl⟩
abbrev main_cst_2 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_3 : Ref sig .tc := ⟨.hbm, 27, rfl⟩
abbrev main_call1_v0 : Ref sig .tc := ⟨.hbm, 28, rfl⟩
abbrev main_call1_v1 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_c : Ref sig .tc := ⟨.hbm, 36, rfl⟩
abbrev main_v14 : Ref sig .tc := ⟨.hbm, 37, rfl⟩
abbrev main_v15 : Ref sig .tc := ⟨.hbm, 38, rfl⟩
abbrev main_c_4 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_cst_5 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_call2_cst : Ref sig .tc := ⟨.hbm, 56, rfl⟩
abbrev main_call2_v0 : Ref sig .tc := ⟨.hbm, 57, rfl⟩
abbrev main_v31 : Ref sig .tc := ⟨.hbm, 58, rfl⟩
abbrev main_cst_6 : Ref sig .tc := ⟨.hbm, 59, rfl⟩
abbrev main_v32 : Ref sig .tc := ⟨.hbm, 60, rfl⟩
abbrev main_cst_7 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_8 : Ref sig .tc := ⟨.hbm, 65, rfl⟩
abbrev main_call3_v0 : Ref sig .tc := ⟨.hbm, 66, rfl⟩
abbrev main_call3_v1 : Ref sig .tc := ⟨.hbm, 67, rfl⟩
abbrev main_v36 : Ref sig .tc := ⟨.hbm, 68, rfl⟩
abbrev main_cst_9 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_cst_10 : Ref sig .tc := ⟨.hbm, 73, rfl⟩
abbrev main_call4_v0 : Ref sig .tc := ⟨.hbm, 74, rfl⟩
abbrev main_call4_v1 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_c_11 : Ref sig .tc := ⟨.hbm, 82, rfl⟩
abbrev main_v46 : Ref sig .tc := ⟨.hbm, 83, rfl⟩
abbrev main_v47 : Ref sig .tc := ⟨.hbm, 84, rfl⟩
abbrev main_c_12 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_cst_13 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_c_14 : Ref sig .tc := ⟨.hbm, 102, rfl⟩
abbrev main_v63 : Ref sig .tc := ⟨.hbm, 103, rfl⟩
abbrev main_v64 : Ref sig .tc := ⟨.hbm, 104, rfl⟩
abbrev main_c_15 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_c_16 : Ref sig .tc := ⟨.hbm, 111, rfl⟩
abbrev main_v70 : Ref sig .tc := ⟨.hbm, 112, rfl⟩
abbrev main_v71 : Ref sig .tc := ⟨.hbm, 113, rfl⟩
abbrev main_c_17 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_call5_cst : Ref sig .tc := ⟨.hbm, 125, rfl⟩
abbrev main_call5_v0 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_call6_cst : Ref sig .tc := ⟨.hbm, 132, rfl⟩
abbrev main_call6_v0 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_cst_18 : Ref sig .tc := ⟨.hbm, 141, rfl⟩
abbrev main_v94 : Ref sig .tc := ⟨.hbm, 142, rfl⟩
abbrev main_v95 : Ref sig .tc := ⟨.hbm, 143, rfl⟩
abbrev main_cst_19 : Ref sig .tc := ⟨.hbm, 144, rfl⟩
abbrev main_v96 : Ref sig .tc := ⟨.hbm, 145, rfl⟩
abbrev main_v97 : Ref sig .tc := ⟨.hbm, 146, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  concatenates_S1600000x64_S1600000x64_S1600000x128_d1 : Shape.Concatenates [S1600000x64, S1600000x64] S1600000x128 1
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S32_S1x32_1 : S32.BroadcastsInDim S1x32 (![1] : Fin 1 → Fin S1x32.rank)
  bcast_S1x32_S1600000x32_0_1 : S1x32.BroadcastsInDim S1600000x32 (![0, 1] : Fin 2 → Fin S1600000x32.rank)
  bcast_S_S1600000x32 : S_.BroadcastsInDim S1600000x32 (![] : Fin 0 → Fin S1600000x32.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  bcast_S_S1600000x1 : S_.BroadcastsInDim S1600000x1 (![] : Fin 0 → Fin S1600000x1.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S1600000x128_S128x64_S1600000x64_1_0_0_1_n_n_wf : DotDims.WF S1600000x128 S128x64 S1600000x64 [1] [0] [0] [1] [] []
  dot_S1600000x64_S64x32_S1600000x32_1_0_0_1_n_n_wf : DotDims.WF S1600000x64 S64x32 S1600000x32 [1] [0] [0] [1] [] []
  dot_S1600000x32_S32x1_S1600000x1_1_0_0_1_n_n_wf : DotDims.WF S1600000x32 S32x1 S1600000x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S1600000x128_S128x64_S1600000x64_1_0_0_1_n_n : DotDims S1600000x128 S128x64 S1600000x64 where
  lhsContracting := [1]
  rhsContracting := [0]
  lhsNonContracting := [0]
  rhsNonContracting := [1]
  lhsBatch := []
  rhsBatch := []
  wf := dot_S1600000x128_S128x64_S1600000x64_1_0_0_1_n_n_wf
def dot_S1600000x64_S64x32_S1600000x32_1_0_0_1_n_n : DotDims S1600000x64 S64x32 S1600000x32 where
  lhsContracting := [1]
  rhsContracting := [0]
  lhsNonContracting := [0]
  rhsNonContracting := [1]
  lhsBatch := []
  rhsBatch := []
  wf := dot_S1600000x64_S64x32_S1600000x32_1_0_0_1_n_n_wf
def dot_S1600000x32_S32x1_S1600000x1_1_0_0_1_n_n : DotDims S1600000x32 S32x1 S1600000x1 where
  lhsContracting := [1]
  rhsContracting := [0]
  lhsNonContracting := [0]
  rhsNonContracting := [1]
  lhsBatch := []
  rhsBatch := []
  wf := dot_S1600000x32_S32x1_S1600000x1_1_0_0_1_n_n_wf

class Facts : Prop extends Facts₀ where

variable [Facts]
-- ==== Proof.LibDense.lean ====
/-
  One dense layer with ReLU, row by row.

  For a row `h` of `K` numbers, a `K × N` weight matrix `W` and a bias row `b`, the layer's entry `j` is
  `max (∑ k, h k · W k j + b j) 0` on the extended reals. A rows-by-columns matrix product (no batch axis, the left
  operand contracted on its columns, the right on its rows) read at (r, j) is `∑ k, lhs (r, k) · rhs (k, j)`, whether
  it is accumulated into a zero array or has no accumulator; adding a bias row laid along every row and taking the
  maximum with zero then gives the layer of row `r`. Nothing here depends on the number of rows, so a product over
  a tile of rows and a product over all rows read the same way.
-/
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws

noncomputable section

namespace Cert.LibDense

open Idealize.ShloMosaic Idealize.ShloMosaic.ValueIdx

/-- One dense layer followed by ReLU on one row: entry `j` is `max (∑ k, h k · W k j + b j) 0`. -/
def dense {K N : ℕ} (h : Fin K → EReal) (W : Fin K → Fin N → EReal) (b : Fin N → EReal) (j : Fin N) : EReal :=
  max (∑ k : Fin K, h k * W k j + b j) 0

/-- The layer depends on its input row only through the row's entries. -/
theorem dense_congr {K N : ℕ} {h h' : Fin K → EReal} (e : ∀ k, h k = h' k) (W : Fin K → Fin N → EReal) (b : Fin N → EReal)
    (j : Fin N) : dense h W b j = dense h' W b j := by
  rw [show h = h' from funext e]

section Plain

variable {M K N : ℕ}

/-- The rows-by-columns product's left operand index keeps the result's row. -/
theorem plain_lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from fun h => nomatch h),
    dif_pos (show (0 : Fin (⟨2, ![M, K]⟩ : Shape).rank) ∈ (DotDims.plain M K N).lhsNonContracting from List.mem_singleton.mpr rfl)]
  rfl

/-- Its column is the contraction position. -/
theorem plain_lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction position. -/
theorem plain_rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- Its column is the result's column. -/
theorem plain_rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from fun h => nomatch h),
    dif_pos (show (1 : Fin (⟨2, ![K, N]⟩ : Shape).rank) ∈ (DotDims.plain M K N).rhsNonContracting from List.mem_singleton.mpr rfl)]
  rfl

/-- The sum over the product's contraction index, re-indexed by the contracted coordinate `k : Fin K`, with the
    operands read at (r, k) and (k, j). -/
theorem plain_sum {φ₁ φ₂ : FTy} (lhs : FVec Ideal ⟨2, ![M, K]⟩ φ₁) (rhs : FVec Ideal ⟨2, ![K, N]⟩ φ₂) (r : Fin M) (j : Fin N) :
    (∑ q : (DotDims.plain M K N).contr.Idx,
        lhs ((DotDims.plain M K N).lhsIdx (ix2 r j) q) * rhs ((DotDims.plain M K N).rhsIdx (ix2 r j) q))
      = ∑ k : Fin K, lhs (ix2 r k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun a => Fin.ext (by
      match a with
      | ⟨0, _⟩ => exact plain_lhs_row _ _
      | ⟨1, _⟩ => exact (plain_lhs_col _ _).trans hk)
  have er : (DotDims.plain M K N).rhsIdx (ix2 r j) ((contrEquiv1 (DotDims.plain M K N) K rfl rfl).symm k) = ix2 k j :=
    funext fun a => Fin.ext (by
      match a with
      | ⟨0, _⟩ => exact (plain_rhs_row _ _).trans hk
      | ⟨1, _⟩ => exact plain_rhs_col _ _)
  rw [el, er]

/-- A rows-by-columns product accumulated into a zero array, read at (r, j). -/
theorem matmul_plain_zero_apply {φ₁ φ₂ : FTy} (prec : Option ContractPrecision) (lhs : FVec Ideal ⟨2, ![M, K]⟩ φ₁)
    (rhs : FVec Ideal ⟨2, ![K, N]⟩ φ₂) (r : Fin M) (j : Fin N) :
    FloatOps.matmul (DotDims.plain M K N) prec lhs rhs (constant ⟨2, ![M, N]⟩ .f32 0x00000000#32) (ix2 r j)
      = ∑ k : Fin K, lhs (ix2 r k) * rhs (ix2 k j) := by
  rw [Ideal.matmul_constant_zero_apply]
  exact plain_sum lhs rhs r j

/-- The host's rows-by-columns product, read at (r, j). -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (r : Fin M) (j : Fin N) :
    FloatOps.dotGeneral (DotDims.plain M K N) prec sched lhs rhs (ix2 r j) = ∑ k : Fin K, lhs (ix2 r k) * rhs (ix2 k j) := by
  rw [Ideal.dotGeneral_apply]
  exact plain_sum lhs rhs r j

end Plain

/-! ## The layer as a kernel and as a host program spell it -/

section Layers

variable {M K N : ℕ} {φ₁ φ₂ : FTy}

/-- A kernel's layer — the product into a zero accumulator, a one-row bias laid along every row, the maximum with a
    splat zero — read at (r, j), given the input's row `r`. The product's dimension numbers may be any record that
    IS the rows-by-columns one. -/
theorem kernel_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨2, ![1, N]⟩ .f32) (hb : (⟨2, ![1, N]⟩ : Shape).Broadcasts ⟨2, ![M, N]⟩) (r : Fin M) (j : Fin N)
    (row : Fin K → EReal) (hrow : ∀ k, h (ix2 r k) = row k) :
    maximumf (addf (matmul d prec h W (constant (F := Ideal) ⟨2, ![M, N]⟩ .f32 0x00000000#32)) (broadcastTo ⟨2, ![M, N]⟩ b hb))
        (broadcast ⟨2, ![M, N]⟩ (Scalar.ofBits (F := Ideal) .f32 0x00000000#32)) (ix2 r j)
      = dense row (fun k j => W (ix2 k j)) (fun j => b (ix2 (0 : Fin 1) j)) j := by
  subst hd
  show max (FloatOps.matmul (DotDims.plain M K N) prec h W (constant ⟨2, ![M, N]⟩ .f32 0x00000000#32) (ix2 r j)
      + broadcastTo ⟨2, ![M, N]⟩ b hb (ix2 r j)) (Ideal.ofBits .f32 0x00000000#32) = _
  rw [matmul_plain_zero_apply, broadcastTo_1b_ab_apply, Ideal.ofBits_zero_f32]
  unfold dense
  simp only [hrow]

/-- A host program's layer — the product, a bias vector laid along axis 1 of a one-row matrix and that row down the
    rows, the maximum with a broadcast zero — read at (e, j), given the input's row `e`. -/
theorem host_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (e : Fin M) (j : Fin N)
    (row : Fin K → EReal) (hrow : ∀ k, h (ix2 e k) = row k) :
    maximumf (addf (Host.dotGeneral d prec h W)
          (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)) (ix2 e j)
      = dense row (fun k j => W (ix2 k j)) (fun j => b (ix1 j)) j := by
  subst hd
  have e2 := broadcastInDim_oneRow_apply h2 (broadcastInDim ⟨2, ![1, N]⟩ ![1] h1 b) e j
  have e1 := broadcastInDim_apply ![1] h1 b (ix2 (0 : Fin 1) j) (ix1 j) (fun a => by
    match a with
    | ⟨0, _⟩ =>
      show j.val = if N = 1 then 0 else j.val
      split
      · have := j.isLt; omega
      · rfl)
  have e0 := broadcastInDim_apply ![] h0 (constant (F := Ideal) ⟨0, ![]⟩ .f32 0x00000000#32) (ix2 e j) (fun a => a.elim0)
    (fun a => a.elim0)
  show max (FloatOps.dotGeneral (DotDims.plain M K N) prec .single h W (ix2 e j)
      + broadcastInDim ⟨2, ![M, N]⟩ ![0, 1] h2 (broadcastInDim ⟨2, ![1, N]⟩ ![1] h1 b) (ix2 e j))
      (broadcastInDim ⟨2, ![M, N]⟩ ![] h0 (constant (F := Ideal) ⟨0, ![]⟩ .f32 0x00000000#32) (ix2 e j)) = _
  rw [dotGeneral_plain_apply, e2, e1, e0]
  show max _ (Ideal.ofBits .f32 0x00000000#32) = _
  rw [Ideal.ofBits_zero_f32]
  unfold dense
  simp only [hrow]

end Layers

end Cert.LibDense

end
-- ==== Proof.Region0.lean ====
/-
  The first node-wise product, as one whole-array product.

  The region multiplies the scaled feature matrix X (100000 × 128) by the weight matrix W (128 × 128), ten thousand rows
  at a time: grid point t holds rows 10000·t … 10000·t + 9999 of X and all of W, multiplies them into a zero accumulator
  and writes rows 10000·t … 10000·t + 9999 of the result. Entry (p, q) of a tile's product is ∑ₖ X(10000·t + p, k) · W(k, q):
  it depends on X only through that one row, so what point t writes back is the block of ONE whole-array product X · W,
  and the ten blocks tile the result array. Hence the array ends holding X · W.
-/
import proofs.«114246_j46600395161977_1_alg».proof.Proof.Gen.KernelIdeal.Frame
import proofs.«114246_j46600395161977_1_alg».proof.Proof.LibDense
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The product X · W of the whole arrays. -/
def prod (x : FVec Ideal S100000x128 .bf16) (w : FVec Ideal S128x128 .bf16) : FVec Ideal S100000x128 .f32 :=
  Host.dotGeneral (DotDims.plain 100000 128 128) none x w

/-- Its entry (r, j) is ∑ₖ X(r, k) · W(k, j). -/
theorem prod_apply (x : FVec Ideal S100000x128 .bf16) (w : FVec Ideal S128x128 .bf16) (r : Fin 100000) (j : Fin 128) :
    prod x w (ix2 r j) = ∑ k : Fin 128, x (ix2 r k) * w (ix2 k j) :=
  Cert.LibDense.dotGeneral_plain_apply none .single x w r j

/-- A tile's product into a zero accumulator, at (p, q), is ∑ₖ tile(p, k) · W(k, q). -/
theorem tile_apply (x0 : Vec Ideal S10000x128 .bf16) (x1 : Vec Ideal S128x128 .bf16) (p : Fin 10000) (q : Fin 128) :
    k0_pay1 x0 x1 (ix2 p q) = ∑ k : Fin 128, x0 (ix2 p k) * x1 (ix2 k q) := by
  unfold k0_pay1
  rw [shapeCast_self, shapeCast_self]
  exact Cert.LibDense.matmul_plain_zero_apply none x0 x1 p q

/-- A tile whose rows are rows 10000·n … of X, multiplied by W, is rows 10000·n … of X · W. -/
theorem tile_eq_prod (x0 : Vec Ideal S10000x128 .bf16) (x1 : Vec Ideal S128x128 .bf16)
    (X : FVec Ideal S100000x128 .bf16) (W : FVec Ideal S128x128 .bf16) (n : ℕ)
    (hx0 : ∀ (p : Fin 10000) (k : Fin 128) (r : Fin 100000), r.val = 10000 * n + p.val → x0 (ix2 p k) = X (ix2 r k))
    (hx1 : ∀ (k : Fin 128) (q : Fin 128), x1 (ix2 k q) = W (ix2 k q))
    (y : S10000x128.Idx) (i : S100000x128.Idx) (hi0 : (i 0).val = 10000 * n + (y 0).val) (hi1 : (i 1).val = (y 1).val) :
    k0_pay1 x0 x1 y = prod X W i := by
  obtain ⟨p, q, rfl⟩ : ∃ (p : Fin 10000) (q : Fin 128), y = ix2 p q := ⟨y 0, y 1, eq_ix2 y⟩
  obtain ⟨r, s, rfl⟩ : ∃ (r : Fin 100000) (s : Fin 128), i = ix2 r s := ⟨i 0, i 1, eq_ix2 i⟩
  obtain rfl : s = q := Fin.ext hi1
  rw [tile_apply, prod_apply]
  exact Finset.sum_congr rfl fun k _ => by rw [hx0 p k r hi0, hx1]

/-- The printed index maps over the grid: the feature and result windows' block row is the point, their block column 0;
    the weight window stays at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature window's block at point t, at (p, k), is X at row 10000·t + p. -/
theorem xblk_apply (c : Dev nD) (t : Fin cfg0.N) (p : Fin 10000) (k : Fin 128) (r : Fin 100000)
    (hr : r.val = 10000 * t.val + p.val) :
    (iblk0 V c 0 t : Vec Ideal S10000x128 .bf16) (ix2 p k) = (V c main_v15 : FVec Ideal S100000x128 .bf16) (ix2 r k) := by
  obtain ⟨e0, e1, -⟩ := idx_facts t
  unfold iblk0
  rw [View.read_apply]
  show V c main_v15 _ = V c main_v15 _
  congr 1
  funext a
  apply Fin.ext
  match a with
  | ⟨0, _⟩ => show win0_0.index t (0 : Fin 2) * 10000 + 1 * p.val = r.val; rw [e0, hr]; omega
  | ⟨1, _⟩ => show win0_0.index t (1 : Fin 2) * 128 + 1 * k.val = k.val; rw [e1]; omega

/-- The weight window's block at any point is W. -/
theorem wblk_apply (c : Dev nD) (t : Fin cfg0.N) (k : Fin 128) (q : Fin 128) :
    (iblk0 V c 1 t : Vec Ideal S128x128 .bf16) (ix2 k q) = (V c main_v16 : FVec Ideal S128x128 .bf16) (ix2 k q) := by
  obtain ⟨-, -, e2, e3, -⟩ := idx_facts t
  unfold iblk0
  rw [View.read_apply]
  show V c main_v16 _ = V c main_v16 _
  congr 1
  funext a
  apply Fin.ext
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- What point t writes back is block t of X · W. -/
theorem flushed_eq (c : Dev nD) (t : Fin cfg0.N) :
    (dat0 V c).flushed 2 t = ((cfg0.win 2).blk t).view.read (Elt Ideal) (prod (V c main_v15) (V c main_v16)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  obtain ⟨-, -, -, -, e4, e5⟩ := idx_facts t
  funext j
  show k0_pay1 (iblk0 V c 0 t) (iblk0 V c 1 t) j = prod (V c main_v15) (V c main_v16) (((cfg0.win 2).blk t).view.emb j)
  refine tile_eq_prod (iblk0 V c 0 t) (iblk0 V c 1 t) (V c main_v15) (V c main_v16) t.val
    (fun p k r hr => xblk_apply V c t p k r hr) (fun k q => wblk_apply V c t k q) j (((cfg0.win 2).blk t).view.emb j) ?_ ?_
  · show win0_2.index t (0 : Fin 2) * 10000 + 1 * (j 0).val = 10000 * t.val + (j 0).val
    rw [e4]; omega
  · show win0_2.index t (1 : Fin 2) * 128 + 1 * (j 1).val = (j 1).val
    rw [e5]; omega

/-- An index of the result array is in point t's block iff each coordinate is in the block's range on its axis. -/
theorem mem_blk (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v17).slice (win0_2.rect t)).set ↔ _
  rw [View.set_slice_whole, Rect.mem_set_unit]
  exact Iff.rfl

/-- Row r lies in the block of point r / 10000: the ten blocks tile the array. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 10 := N_0
  refine ⟨⟨(i 0).val / 10000, by rw [hN]; omega⟩, flush0_2 _, ?_⟩
  rw [mem_blk]
  obtain ⟨-, -, -, -, e4, e5⟩ := idx_facts ⟨(i 0).val / 10000, by rw [hN]; omega⟩
  intro a
  match a with
  | ⟨0, _⟩ =>
    show win0_2.index ⟨(i 0).val / 10000, _⟩ (0 : Fin 2) * 10000 ≤ (i 0).val
      ∧ (i 0).val < win0_2.index ⟨(i 0).val / 10000, _⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, _⟩ (1 : Fin 2) * 128 ≤ (i 1).val
      ∧ (i 1).val < win0_2.index ⟨(i 0).val / 10000, _⟩ (1 : Fin 2) * 128 + 128
    rw [e5]; omega

/-- The result array after the region: X · W of the arrays as the region finds them. -/
theorem final (c : Dev nD) : (dat0 V c).arrAt 2 cfg0.N = prod (V c main_v15) (V c main_v16) :=
  (dat0 V c).arrAt_eq_of_cover 2 (prod (V c main_v15) (V c main_v16)) (fun t _ => flushed_eq V c t) cover

end Cert.KernelIdeal.Region0

end
-- ==== Proof.CallCasts.lean ====
/-
  Values passed into and out of the program's outlined functions.

  A function the program calls (the clip of a degree vector at one, the ReLU of the first layer) names its operands and
  results by typed references, and a value crossing from @main's operations into the function's, or back, is transported
  along the equation "this buffer's type is the value's type". For every buffer of this program that equation holds by
  computation, so each transport is the identity. These lemmas say so, one per crossing, so that a term read back through
  the host operations shows the arithmetic alone.
-/
import proofs.«114246_j46600395161977_1_alg».proof.Proof.Gen.KernelIdeal.Launch
import Idealize.ShloMosaic.Lib.StableHlo
import Idealize.ShloMosaic.PureOps.Ideal

noncomputable section

open Idealize.ShloMosaic Idealize.ShloMosaic.StableHlo

namespace Cert.KernelIdeal.Casts

open Cert.KernelIdeal

/-- A value taken to a buffer's type and back is itself. -/
theorem ofBuf_toBuf {Val : EltTy → Type} {T : BufTy} (x : TRef sig T) (v : T.Contents Val) : x.ofBuf (x.toBuf v) = v := by
  obtain ⟨r, h, h2, h3⟩ := x
  subst h
  rfl

section
variable (p1 : main_cst_1.ty = ⟨S_, .f32⟩) (p2 : main_cst_1.space ≠ .host) (p3 : main_cst_1.isScoped = false)
/-- The constant one handed to the first clip. -/
theorem ofBuf_cst_1 (v : FVec Ideal S_ .f32) :
    @Eq (FVec Ideal S_ .f32) ((TRef.of (T := ⟨S_, .f32⟩) main_cst_1 p1 p2 p3).ofBuf (Val := Elt Ideal) v) v := rfl
end

section
variable (p1 : main_v3.ty = ⟨S100000, .f32⟩) (p2 : main_v3.space ≠ .host) (p3 : main_v3.isScoped = false)
/-- The out-degree counts handed to the first clip. -/
theorem ofBuf_v3 (v : FVec Ideal S100000 .f32) :
    @Eq (FVec Ideal S100000 .f32) ((TRef.of (T := ⟨S100000, .f32⟩) main_v3 p1 p2 p3).ofBuf (Val := Elt Ideal) v) v := rfl
end

section
variable (p1 : main_v4.ty = ⟨S100000, .f32⟩) (p2 : main_v4.space ≠ .host) (p3 : main_v4.isScoped = false)
/-- The clipped out-degrees handed back. -/
theorem toBuf_v4 (v : FVec Ideal S100000 .f32) :
    @Eq (FVec Ideal S100000 .f32) ((TRef.of (T := ⟨S100000, .f32⟩) main_v4 p1 p2 p3).toBuf (Val := Elt Ideal) v) v := rfl
end

section
variable (p1 : main_cst_3.ty = ⟨S_, .f32⟩) (p2 : main_cst_3.space ≠ .host) (p3 : main_cst_3.isScoped = false)
/-- The constant one handed to the second clip. -/
theorem ofBuf_cst_3 (v : FVec Ideal S_ .f32) :
    @Eq (FVec Ideal S_ .f32) ((TRef.of (T := ⟨S_, .f32⟩) main_cst_3 p1 p2 p3).ofBuf (Val := Elt Ideal) v) v := rfl
end

section
variable (p1 : main_v7.ty = ⟨S100000, .f32⟩) (p2 : main_v7.space ≠ .host) (p3 : main_v7.isScoped = false)
/-- The in-degree counts handed to the second clip. -/
theorem ofBuf_v7 (v : FVec Ideal S100000 .f32) :
    @Eq (FVec Ideal S100000 .f32) ((TRef.of (T := ⟨S100000, .f32⟩) main_v7 p1 p2 p3).ofBuf (Val := Elt Ideal) v) v := rfl
end

section
variable (p1 : main_v8.ty = ⟨S100000, .f32⟩) (p2 : main_v8.space ≠ .host) (p3 : main_v8.isScoped = false)
/-- The clipped in-degrees handed back. -/
theorem toBuf_v8 (v : FVec Ideal S100000 .f32) :
    @Eq (FVec Ideal S100000 .f32) ((TRef.of (T := ⟨S100000, .f32⟩) main_v8 p1 p2 p3).toBuf (Val := Elt Ideal) v) v := rfl
end

section
variable (p1 : main_v32.ty = ⟨S100000x128, .f32⟩) (p2 : main_v32.space ≠ .host) (p3 : main_v32.isScoped = false)
/-- The first layer's pre-activation handed to the ReLU. -/
theorem ofBuf_v32 (v : FVec Ideal S100000x128 .f32) :
    @Eq (FVec Ideal S100000x128 .f32) ((TRef.of (T := ⟨S100000x128, .f32⟩) main_v32 p1 p2 p3).ofBuf (Val := Elt Ideal) v) v := rfl
end

section
variable (p1 : main_v33.ty = ⟨S100000x128, .f32⟩) (p2 : main_v33.space ≠ .host) (p3 : main_v33.isScoped = false)
/-- The first layer's activation handed back. -/
theorem toBuf_v33 (v : FVec Ideal S100000x128 .f32) :
    @Eq (FVec Ideal S100000x128 .f32) ((TRef.of (T := ⟨S100000x128, .f32⟩) main_v33 p1 p2 p3).toBuf (Val := Elt Ideal) v) v := rfl
end

end Cert.KernelIdeal.Casts

end
-- ==== Proof.Stage0.lean ====
/-
  The first layer's product in the two programs.

  Before its first region the kernel's program computes, on the host, the degree normalisations and the scaled features:
  out-degrees and in-degrees by scatter-adding ones at the edges' endpoints, clipped below at one; their inverse square
  roots as columns; and the features times the out-degree column. These are the reference's own first operations, in the
  same order with the same dimension numbers, so what the region finds in its two input arrays is the reference's scaled
  features and its first weight matrix (each passed through a change of float format, which is the identity on the
  extended reals). The region leaves their whole-array product, which is the reference's first matrix product: at (r, j)
  both are ∑ₖ X(r, k) · W(k, j).
-/
import proofs.«114246_j46600395161977_1_alg».proof.Proof.Gen.KernelIdeal.Frame
import proofs.«114246_j46600395161977_1_alg».proof.Proof.Gen.ReferenceIdeal.Read
import proofs.«114246_j46600395161977_1_alg».proof.Proof.Region0
import proofs.«114246_j46600395161977_1_alg».proof.Proof.CallCasts
import Idealize.ShloMosaic.Lib.StableHlo.Run

set_option maxRecDepth 16384

noncomputable section

open Idealize.ShloMosaic Idealize.ShloMosaic.TcCoe Idealize.SL.Sem Idealize.ShloMosaic.ValueIdx Idealize.ShloMosaic.StableHlo

namespace Cert.KernelIdeal.Stage0

open Cert.KernelIdeal Cert.KernelIdeal.Gen
open Cert.ReferenceIdeal.Read

variable (m : (ℓ : Loc nD τ sig) → Buf (Elt Ideal) ℓ) (ρ : Dev nD → PrngReg) (c : Dev nD)

/-- The argument arrays on core c. -/
abbrev A0 := m ((c : Thread nD τ).loc main_arg0)
abbrev A1 := m ((c : Thread nD τ).loc main_arg1)
abbrev A2 := m ((c : Thread nD τ).loc main_arg2)
abbrev A3 := m ((c : Thread nD τ).loc main_arg3)
abbrev A4 := m ((c : Thread nD τ).loc main_arg4)
abbrev A5 := m ((c : Thread nD τ).loc main_arg5)
abbrev A6 := m ((c : Thread nD τ).loc main_arg6)
abbrev A7 := m ((c : Thread nD τ).loc main_arg7)
abbrev A8 := m ((c : Thread nD τ).loc main_arg8)
abbrev A9 := m ((c : Thread nD τ).loc main_arg9)
abbrev A10 := m ((c : Thread nD τ).loc main_arg10)
abbrev A11 := m ((c : Thread nD τ).loc main_arg11)
abbrev A12 := m ((c : Thread nD τ).loc main_arg12)

/-- The region's first input: the features scaled by the out-degree column, as the reference computes them. -/
theorem scaled_entry : @Eq (FVec Ideal S100000x128 .bf16) (W5 m ρ c (Proc.devRef .tc main_v15))
    (truncf .bf16 (val_main_v12 (F := Ideal) (A0 m c) (A1 m c)) bitsLt_bf16_f32) := by
  show StableHlo.after hostOps0_4 (StableHlo.after hostOps0_3 (StableHlo.after hostOps0_2 (StableHlo.after hostOps0_1
    (StableHlo.after hostOps0 (W0 m ρ c))))) (Proc.devRef .tc main_v15) = _
  after_results_simp
  simp only [Casts.ofBuf_toBuf, Casts.ofBuf_cst_1, Casts.ofBuf_v3, Casts.toBuf_v4, Casts.ofBuf_cst_3, Casts.ofBuf_v7, Casts.toBuf_v8]
  simp only [val_main_v12, val_main_v11, val_main_v10, val_main_v9, val_main_v4, val_main_call0_v1, val_main_call0_v0, val_main_cst_1, val_main_v3, val_main_v1, val_main_cst_0, val_main_v2, val_main_v0, val_main_cst]
  rfl

/-- The region's second input: the first weight matrix. -/
theorem weight_entry : @Eq (FVec Ideal S128x128 .bf16) (W5 m ρ c (Proc.devRef .tc main_v16))
    (truncf .bf16 (A3 m c : FVec Ideal S128x128 .f32) bitsLt_bf16_f32) := by
  show StableHlo.after hostOps0_4 (StableHlo.after hostOps0_3 (StableHlo.after hostOps0_2 (StableHlo.after hostOps0_1
    (StableHlo.after hostOps0 (W0 m ρ c))))) (Proc.devRef .tc main_v16) = _
  after_results_simp <;> rfl

/-- After the region its result array holds the reference's first matrix product. -/
theorem product_exit : @Eq (FVec Ideal S100000x128 .f32) (W6 m ρ c (Proc.devRef .tc main_v17))
    (val_main_v13 (F := Ideal) (A0 m c) (A1 m c) (A3 m c)) := by
  refine (W6_arr m ρ c 2).trans ?_
  rw [Region0.final (V5 m ρ) c]
  show Region0.prod (W5 m ρ c (Proc.devRef .tc main_v15)) (W5 m ρ c (Proc.devRef .tc main_v16)) = _
  rw [scaled_entry, weight_entry]
  funext i
  obtain ⟨r, j, rfl⟩ : ∃ (r : Fin 100000) (j : Fin 128), i = ix2 r j := ⟨i 0, i 1, eq_ix2 i⟩
  rw [Region0.prod_apply]
  unfold val_main_v13
  exact (Cert.LibDense.dotGeneral_plain_apply none .single (val_main_v12 (F := Ideal) (A0 m c) (A1 m c)) (A3 m c) r j).symm

/-! What the later host operations still read of the earlier ones, at the region's exit: the region writes only its own
    three arrays, so every other buffer holds what the host operations before the region left there. -/

theorem arg1_exit : W6 m ρ c (Proc.devRef .tc main_arg1) = (A1 m c) := by
  rw [W6_of_ne m ρ c main_arg1 (by decide +kernel)]
  show StableHlo.after hostOps0_4 (StableHlo.after hostOps0_3 (StableHlo.after hostOps0_2 (StableHlo.after hostOps0_1
    (StableHlo.after hostOps0 (W0 m ρ c))))) (Proc.devRef .tc main_arg1) = _
  after_results_simp <;> rfl

theorem arg2_exit : W6 m ρ c (Proc.devRef .tc main_arg2) = (A2 m c) := by
  rw [W6_of_ne m ρ c main_arg2 (by decide +kernel)]
  show StableHlo.after hostOps0_4 (StableHlo.after hostOps0_3 (StableHlo.after hostOps0_2 (StableHlo.after hostOps0_1
    (StableHlo.after hostOps0 (W0 m ρ c))))) (Proc.devRef .tc main_arg2) = _
  after_results_simp <;> rfl

theorem arg4_exit : W6 m ρ c (Proc.devRef .tc main_arg4) = A4 m c := by
  rw [W6_of_ne m ρ c main_arg4 (by decide +kernel)]
  show StableHlo.after hostOps0_4 (StableHlo.after hostOps0_3 (StableHlo.after hostOps0_2 (StableHlo.after hostOps0_1
    (StableHlo.after hostOps0 (W0 m ρ c))))) (Proc.devRef .tc main_arg4) = _
  after_results_simp <;> rfl

theorem arg5_exit : W6 m ρ c (Proc.devRef .tc main_arg5) = A5 m c := by
  rw [W6_of_ne m ρ c main_arg5 (by decide +kernel)]
  show StableHlo.after hostOps0_4 (StableHlo.after hostOps0_3 (StableHlo.after hostOps0_2 (StableHlo.after hostOps0_1
    (StableHlo.after hostOps0 (W0 m ρ c))))) (Proc.devRef .tc main_arg5) = _
  after_results_simp <;> rfl

/-- The out-degree column (the reference computes it a second time for its second layer: the same operations of the
    same argument). -/
theorem outdeg_exit : @Eq (FVec Ideal S100000x1 .f32) (W6 m ρ c (Proc.devRef .tc main_v10)) (val_main_v42 (F := Ideal) (A1 m c)) := by
  rw [W6_of_ne m ρ c main_v10 (by decide +kernel)]
  show StableHlo.after hostOps0_4 (StableHlo.after hostOps0_3 (StableHlo.after hostOps0_2 (StableHlo.after hostOps0_1
    (StableHlo.after hostOps0 (W0 m ρ c))))) (Proc.devRef .tc main_v10) = _
  after_results_simp
  simp only [Casts.ofBuf_toBuf, Casts.ofBuf_cst_1, Casts.ofBuf_v3, Casts.toBuf_v4, Casts.ofBuf_cst_3, Casts.ofBuf_v7, Casts.toBuf_v8]
  simp only [val_main_v42, val_main_v41, val_main_v36, val_main_call3_v1, val_main_call3_v0, val_main_cst_8, val_main_v35, val_main_v33, val_main_cst_7, val_main_v34, val_main_v32, val_main_cst_6]
  rfl

/-- The in-degree column. -/
theorem indeg_exit : @Eq (FVec Ideal S100000x1 .f32) (W6 m ρ c (Proc.devRef .tc main_v12)) (val_main_v25 (F := Ideal) (A2 m c)) := by
  rw [W6_of_ne m ρ c main_v12 (by decide +kernel)]
  show StableHlo.after hostOps0_4 (StableHlo.after hostOps0_3 (StableHlo.after hostOps0_2 (StableHlo.after hostOps0_1
    (StableHlo.after hostOps0 (W0 m ρ c))))) (Proc.devRef .tc main_v12) = _
  after_results_simp
  simp only [Casts.ofBuf_toBuf, Casts.ofBuf_cst_1, Casts.ofBuf_v3, Casts.toBuf_v4, Casts.ofBuf_cst_3, Casts.ofBuf_v7, Casts.toBuf_v8]
  simp only [val_main_v25, val_main_v24, val_main_v8, val_main_call1_v1, val_main_call1_v0, val_main_cst_3, val_main_v7, val_main_v5, val_main_cst_2, val_main_v6, val_main_v0, val_main_cst]
  rfl

theorem arg6_exit : W6 m ρ c (Proc.devRef .tc main_arg6) = A6 m c := by
  rw [W6_of_ne m ρ c main_arg6 (by decide +kernel)]
  show StableHlo.after hostOps0_4 (StableHlo.after hostOps0_3 (StableHlo.after hostOps0_2 (StableHlo.after hostOps0_1
    (StableHlo.after hostOps0 (W0 m ρ c))))) (Proc.devRef .tc main_arg6) = _
  after_results_simp <;> rfl

theorem arg7_exit : W6 m ρ c (Proc.devRef .tc main_arg7) = A7 m c := by
  rw [W6_of_ne m ρ c main_arg7 (by decide +kernel)]
  show StableHlo.after hostOps0_4 (StableHlo.after hostOps0_3 (StableHlo.after hostOps0_2 (StableHlo.after hostOps0_1
    (StableHlo.after hostOps0 (W0 m ρ c))))) (Proc.devRef .tc main_arg7) = _
  after_results_simp <;> rfl

theorem arg8_exit : W6 m ρ c (Proc.devRef .tc main_arg8) = A8 m c := by
  rw [W6_of_ne m ρ c main_arg8 (by decide +kernel)]
  show StableHlo.after hostOps0_4 (StableHlo.after hostOps0_3 (StableHlo.after hostOps0_2 (StableHlo.after hostOps0_1
    (StableHlo.after hostOps0 (W0 m ρ c))))) (Proc.devRef .tc main_arg8) = _
  after_results_simp <;> rfl

theorem arg9_exit : W6 m ρ c (Proc.devRef .tc main_arg9) = A9 m c := by
  rw [W6_of_ne m ρ c main_arg9 (by decide +kernel)]
  show StableHlo.after hostOps0_4 (StableHlo.after hostOps0_3 (StableHlo.after hostOps0_2 (StableHlo.after hostOps0_1
    (StableHlo.after hostOps0 (W0 m ρ c))))) (Proc.devRef .tc main_arg9) = _
  after_results_simp <;> rfl

theorem arg10_exit : W6 m ρ c (Proc.devRef .tc main_arg10) = A10 m c := by
  rw [W6_of_ne m ρ c main_arg10 (by decide +kernel)]
  show StableHlo.after hostOps0_4 (StableHlo.after hostOps0_3 (StableHlo.after hostOps0_2 (StableHlo.after hostOps0_1
    (StableHlo.after hostOps0 (W0 m ρ c))))) (Proc.devRef .tc main_arg10) = _
  after_results_simp <;> rfl

theorem arg11_exit : W6 m ρ c (Proc.devRef .tc main_arg11) = A11 m c := by
  rw [W6_of_ne m ρ c main_arg11 (by decide +kernel)]
  show StableHlo.after hostOps0_4 (StableHlo.after hostOps0_3 (StableHlo.after hostOps0_2 (StableHlo.after hostOps0_1
    (StableHlo.after hostOps0 (W0 m ρ c))))) (Proc.devRef .tc main_arg11) = _
  after_results_simp <;> rfl

theorem arg12_exit : W6 m ρ c (Proc.devRef .tc main_arg12) = A12 m c := by
  rw [W6_of_ne m ρ c main_arg12 (by decide +kernel)]
  show StableHlo.after hostOps0_4 (StableHlo.after hostOps0_3 (StableHlo.after hostOps0_2 (StableHlo.after hostOps0_1
    (StableHlo.after hostOps0 (W0 m ρ c))))) (Proc.devRef .tc main_arg12) = _
  after_results_simp <;> rfl

/-- The in-degree column again, in the spelling of the reference's second layer (it computes the column a second time:
    the same operations of the same argument). -/
theorem indeg_exit' : @Eq (FVec Ideal S100000x1 .f32) (W6 m ρ c (Proc.devRef .tc main_v12)) (val_main_v57 (F := Ideal) (A2 m c)) := by
  rw [W6_of_ne m ρ c main_v12 (by decide +kernel)]
  show StableHlo.after hostOps0_4 (StableHlo.after hostOps0_3 (StableHlo.after hostOps0_2 (StableHlo.after hostOps0_1
    (StableHlo.after hostOps0 (W0 m ρ c))))) (Proc.devRef .tc main_v12) = _
  after_results_simp
  simp only [Casts.ofBuf_toBuf, Casts.ofBuf_cst_1, Casts.ofBuf_v3, Casts.toBuf_v4, Casts.ofBuf_cst_3, Casts.ofBuf_v7, Casts.toBuf_v8]
  simp only [val_main_v57, val_main_v56, val_main_v40, val_main_call4_v1, val_main_call4_v0, val_main_cst_10, val_main_v39, val_main_v37, val_main_cst_9, val_main_v38, val_main_v32, val_main_cst_6]
  rfl

end Cert.KernelIdeal.Stage0

end
-- ==== Proof.Region1.lean ====
/-
  The second node-wise product, as one whole-array product.

  The region multiplies the scaled hidden features H (100000 × 128) by the second layer's weight matrix W (128 × 64), ten
  thousand rows at a time: grid point t holds rows 10000·t … 10000·t + 9999 of H and all of W, and writes the same rows
  of the 100000 × 64 result. Entry (p, q) of a tile's product is ∑ₖ H(10000·t + p, k) · W(k, q), a function of row
  10000·t + p of H alone, so each written block is the block of the whole-array product H · W, and the ten blocks tile
  the result. Hence the array ends holding H · W.
-/
import proofs.«114246_j46600395161977_1_alg».proof.Proof.Gen.KernelIdeal.Frame
import proofs.«114246_j46600395161977_1_alg».proof.Proof.LibDense
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The product H · W of the whole arrays. -/
def prod (x : FVec Ideal S100000x128 .bf16) (w : FVec Ideal S128x64 .bf16) : FVec Ideal S100000x64 .f32 :=
  Host.dotGeneral (DotDims.plain 100000 128 64) none x w

/-- Its entry (r, j) is ∑ₖ H(r, k) · W(k, j). -/
theorem prod_apply (x : FVec Ideal S100000x128 .bf16) (w : FVec Ideal S128x64 .bf16) (r : Fin 100000) (j : Fin 64) :
    prod x w (ix2 r j) = ∑ k : Fin 128, x (ix2 r k) * w (ix2 k j) :=
  Cert.LibDense.dotGeneral_plain_apply none .single x w r j

/-- A tile's product into a zero accumulator, at (p, q), is ∑ₖ tile(p, k) · W(k, q). -/
theorem tile_apply (x0 : Vec Ideal S10000x128 .bf16) (x1 : Vec Ideal S128x64 .bf16) (p : Fin 10000) (q : Fin 64) :
    k1_pay1 x0 x1 (ix2 p q) = ∑ k : Fin 128, x0 (ix2 p k) * x1 (ix2 k q) := by
  unfold k1_pay1
  rw [shapeCast_self, shapeCast_self]
  exact Cert.LibDense.matmul_plain_zero_apply none x0 x1 p q

/-- A tile whose rows are rows 10000·n … of H, multiplied by W, is rows 10000·n … of H · W. -/
theorem tile_eq_prod (x0 : Vec Ideal S10000x128 .bf16) (x1 : Vec Ideal S128x64 .bf16)
    (X : FVec Ideal S100000x128 .bf16) (W : FVec Ideal S128x64 .bf16) (n : ℕ)
    (hx0 : ∀ (p : Fin 10000) (k : Fin 128) (r : Fin 100000), r.val = 10000 * n + p.val → x0 (ix2 p k) = X (ix2 r k))
    (hx1 : ∀ (k : Fin 128) (q : Fin 64), x1 (ix2 k q) = W (ix2 k q))
    (y : S10000x64.Idx) (i : S100000x64.Idx) (hi0 : (i 0).val = 10000 * n + (y 0).val) (hi1 : (i 1).val = (y 1).val) :
    k1_pay1 x0 x1 y = prod X W i := by
  obtain ⟨p, q, rfl⟩ : ∃ (p : Fin 10000) (q : Fin 64), y = ix2 p q := ⟨y 0, y 1, eq_ix2 y⟩
  obtain ⟨r, s, rfl⟩ : ∃ (r : Fin 100000) (s : Fin 64), i = ix2 r s := ⟨i 0, i 1, eq_ix2 i⟩
  obtain rfl : s = q := Fin.ext hi1
  rw [tile_apply, prod_apply]
  exact Finset.sum_congr rfl fun k _ => by rw [hx0 p k r hi0, hx1]

/-- The printed index maps over the grid: the hidden-feature and result windows' block row is the point, their block
    column 0; the weight window stays at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The hidden-feature window's block at point t, at (p, k), is H at row 10000·t + p. -/
theorem xblk_apply (c : Dev nD) (t : Fin cfg1.N) (p : Fin 10000) (k : Fin 128) (r : Fin 100000)
    (hr : r.val = 10000 * t.val + p.val) :
    (iblk1 V c 0 t : Vec Ideal S10000x128 .bf16) (ix2 p k) = (V c main_v36 : FVec Ideal S100000x128 .bf16) (ix2 r k) := by
  obtain ⟨e0, e1, -⟩ := idx_facts t
  unfold iblk1
  rw [View.read_apply]
  show V c main_v36 _ = V c main_v36 _
  congr 1
  funext a
  apply Fin.ext
  match a with
  | ⟨0, _⟩ => show win1_0.index t (0 : Fin 2) * 10000 + 1 * p.val = r.val; rw [e0, hr]; omega
  | ⟨1, _⟩ => show win1_0.index t (1 : Fin 2) * 128 + 1 * k.val = k.val; rw [e1]; omega

/-- The weight window's block at any point is W. -/
theorem wblk_apply (c : Dev nD) (t : Fin cfg1.N) (k : Fin 128) (q : Fin 64) :
    (iblk1 V c 1 t : Vec Ideal S128x64 .bf16) (ix2 k q) = (V c main_v37 : FVec Ideal S128x64 .bf16) (ix2 k q) := by
  obtain ⟨-, -, e2, e3, -⟩ := idx_facts t
  unfold iblk1
  rw [View.read_apply]
  show V c main_v37 _ = V c main_v37 _
  congr 1
  funext a
  apply Fin.ext
  match a with
  | ⟨0, _⟩ => show win1_1.index t (0 : Fin 2) * 128 + 1 * k.val = k.val; rw [e2]; omega
  | ⟨1, _⟩ => show win1_1.index t (1 : Fin 2) * 64 + 1 * q.val = q.val; rw [e3]; omega

/-- What point t writes back is block t of H · W. -/
theorem flushed_eq (c : Dev nD) (t : Fin cfg1.N) :
    (dat1 V c).flushed 2 t = ((cfg1.win 2).blk t).view.read (Elt Ideal) (prod (V c main_v36) (V c main_v37)) := by
  show (cfg1.win 2).cut (grid1.coords t) ((dat1 V c).after 2 t) = _
  rw [after1_2]
  unfold out1_2
  rw [View.canon_unit_zero hz]
  simp only [View.ld_unit_zero (S := S10000x128) hz, View.ld_unit_zero (S := S128x64) hz]
  obtain ⟨-, -, -, -, e4, e5⟩ := idx_facts t
  funext j
  show k1_pay1 (iblk1 V c 0 t) (iblk1 V c 1 t) j = prod (V c main_v36) (V c main_v37) (((cfg1.win 2).blk t).view.emb j)
  refine tile_eq_prod (iblk1 V c 0 t) (iblk1 V c 1 t) (V c main_v36) (V c main_v37) t.val
    (fun p k r hr => xblk_apply V c t p k r hr) (fun k q => wblk_apply V c t k q) j (((cfg1.win 2).blk t).view.emb j) ?_ ?_
  · show win1_2.index t (0 : Fin 2) * 10000 + 1 * (j 0).val = 10000 * t.val + (j 0).val
    rw [e4]; omega
  · show win1_2.index t (1 : Fin 2) * 64 + 1 * (j 1).val = (j 1).val
    rw [e5]; omega

/-- An index of the result array is in point t's block iff each coordinate is in the block's range on its axis. -/
theorem mem_blk (t : Fin cfg1.N) (i : S100000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v38).slice (win1_2.rect t)).set ↔ _
  rw [View.set_slice_whole, Rect.mem_set_unit]
  exact Iff.rfl

/-- Row r lies in the block of point r / 10000: the ten blocks tile the array. -/
theorem cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 10 := N_1
  refine ⟨⟨(i 0).val / 10000, by rw [hN]; omega⟩, flush1_2 _, ?_⟩
  rw [mem_blk]
  obtain ⟨-, -, -, -, e4, e5⟩ := idx_facts ⟨(i 0).val / 10000, by rw [hN]; omega⟩
  intro a
  match a with
  | ⟨0, _⟩ =>
    show win1_2.index ⟨(i 0).val / 10000, _⟩ (0 : Fin 2) * 10000 ≤ (i 0).val
      ∧ (i 0).val < win1_2.index ⟨(i 0).val / 10000, _⟩ (0 : Fin 2) * 10000 + 10000
    rw [e4]; show (i 0).val / 10000 * 10000 ≤ (i 0).val ∧ (i 0).val < (i 0).val / 10000 * 10000 + 10000; omega
  | ⟨1, _⟩ =>
    show win1_2.index ⟨(i 0).val / 10000, _⟩ (1 : Fin 2) * 64 ≤ (i 1).val
      ∧ (i 1).val < win1_2.index ⟨(i 0).val / 10000, _⟩ (1 : Fin 2) * 64 + 64
    rw [e5]; omega

/-- The result array after the region: H · W of the arrays as the region finds them. -/
theorem final (c : Dev nD) : (dat1 V c).arrAt 2 cfg1.N = prod (V c main_v36) (V c main_v37) :=
  (dat1 V c).arrAt_eq_of_cover 2 (prod (V c main_v36) (V c main_v37)) (fun t _ => flushed_eq V c t) cover

end Cert.KernelIdeal.Region1

end
-- ==== Proof.Stage1.lean ====
/-
  The second layer's product in the two programs.

  Between its first two regions the kernel's program gathers the first product's rows at the edges' sources (negative
  indices wrapped once by the number of nodes), scatter-adds them at the edges' destinations, scales by the in-degree
  column, adds the first bias, clips at zero, and scales by the out-degree column: the reference's own operations between
  its first two matrix products, on the same operands — the first product being the one value the two programs computed
  differently, and equal by the previous stage. So the second region finds the reference's scaled hidden features and its
  second weight matrix, and leaves their whole-array product, the reference's second matrix product.
-/
import proofs.«114246_j46600395161977_1_alg».proof.Proof.Stage0
import proofs.«114246_j46600395161977_1_alg».proof.Proof.Region1

set_option maxRecDepth 16384

noncomputable section

open Idealize.ShloMosaic Idealize.ShloMosaic.TcCoe Idealize.SL.Sem Idealize.ShloMosaic.ValueIdx Idealize.ShloMosaic.StableHlo

namespace Cert.KernelIdeal.Stage1

open Cert.KernelIdeal Cert.KernelIdeal.Gen Cert.KernelIdeal.Stage0
open Cert.ReferenceIdeal.Read

variable (m : (ℓ : Loc nD τ sig) → Buf (Elt Ideal) ℓ) (ρ : Dev nD → PrngReg) (c : Dev nD)

/-- The region's first input: the first layer's activations scaled by the out-degree column, as the reference computes
    them. -/
theorem hidden_entry : @Eq (FVec Ideal S100000x128 .bf16) (W9 m ρ c (Proc.devRef .tc main_v36))
    (truncf .bf16 (val_main_v44 (F := Ideal) (A0 m c) (A1 m c) (A2 m c) (A3 m c) (A4 m c)) bitsLt_bf16_f32) := by
  show StableHlo.after hostOps1_2 (StableHlo.after hostOps1_1 (StableHlo.after hostOps1 (W6 m ρ c))) (Proc.devRef .tc main_v36) = _
  after_results_simp
  simp only [Casts.ofBuf_toBuf, Casts.ofBuf_v32, Casts.toBuf_v33]
  rw [product_exit, arg1_exit, arg2_exit, indeg_exit, arg4_exit, outdeg_exit]
  simp only [val_main_v44, val_main_v31, val_main_v30, val_main_v27, val_main_v23, val_main_v21, val_main_cst_5, val_main_v22, val_main_v20, val_main_v19, val_main_v18, val_main_v15, val_main_v14, val_main_c, val_main_v17, val_main_v16, val_main_c_4, val_main_v26, val_main_v29, val_main_v28, val_main_call2_v0, val_main_call2_cst, val_main_v43]
  rfl

/-- The region's second input: the second weight matrix. -/
theorem weight_entry : @Eq (FVec Ideal S128x64 .bf16) (W9 m ρ c (Proc.devRef .tc main_v37))
    (truncf .bf16 (A5 m c : FVec Ideal S128x64 .f32) bitsLt_bf16_f32) := by
  show StableHlo.after hostOps1_2 (StableHlo.after hostOps1_1 (StableHlo.after hostOps1 (W6 m ρ c))) (Proc.devRef .tc main_v37) = _
  after_results_simp
  rw [arg5_exit]

/-- After the region its result array holds the reference's second matrix product. -/
theorem product_exit : @Eq (FVec Ideal S100000x64 .f32) (W10 m ρ c (Proc.devRef .tc main_v38))
    (val_main_v45 (F := Ideal) (A0 m c) (A1 m c) (A2 m c) (A3 m c) (A4 m c) (A5 m c)) := by
  refine (W10_arr m ρ c 2).trans ?_
  rw [Region1.final (V9 m ρ) c]
  show Region1.prod (W9 m ρ c (Proc.devRef .tc main_v36)) (W9 m ρ c (Proc.devRef .tc main_v37)) = _
  rw [hidden_entry, weight_entry]
  funext i
  obtain ⟨r, j, rfl⟩ : ∃ (r : Fin 100000) (j : Fin 64), i = ix2 r j := ⟨i 0, i 1, eq_ix2 i⟩
  rw [Region1.prod_apply]
  unfold val_main_v45
  exact (Cert.LibDense.dotGeneral_plain_apply none .single
    (val_main_v44 (F := Ideal) (A0 m c) (A1 m c) (A2 m c) (A3 m c) (A4 m c)) (A5 m c) r j).symm

/-! What the last host stretch still reads of the earlier ones, at the second region's exit: the region writes only its own
    three arrays, and the host operations between the regions write none of these buffers. -/

theorem arg1_exit : W10 m ρ c (Proc.devRef .tc main_arg1) = A1 m c := by
  rw [W10_of_ne m ρ c main_arg1 (by decide +kernel)]
  show StableHlo.after hostOps1_2 (StableHlo.after hostOps1_1 (StableHlo.after hostOps1 (W6 m ρ c))) (Proc.devRef .tc main_arg1) = _
  after_results_simp
  exact Stage0.arg1_exit m ρ c

theorem arg2_exit : W10 m ρ c (Proc.devRef .tc main_arg2) = A2 m c := by
  rw [W10_of_ne m ρ c main_arg2 (by decide +kernel)]
  show StableHlo.after hostOps1_2 (StableHlo.after hostOps1_1 (StableHlo.after hostOps1 (W6 m ρ c))) (Proc.devRef .tc main_arg2) = _
  after_results_simp
  exact Stage0.arg2_exit m ρ c

theorem arg6_exit : W10 m ρ c (Proc.devRef .tc main_arg6) = A6 m c := by
  rw [W10_of_ne m ρ c main_arg6 (by decide +kernel)]
  show StableHlo.after hostOps1_2 (StableHlo.after hostOps1_1 (StableHlo.after hostOps1 (W6 m ρ c))) (Proc.devRef .tc main_arg6) = _
  after_results_simp
  exact Stage0.arg6_exit m ρ c

theorem arg7_exit : W10 m ρ c (Proc.devRef .tc main_arg7) = A7 m c := by
  rw [W10_of_ne m ρ c main_arg7 (by decide +kernel)]
  show StableHlo.after hostOps1_2 (StableHlo.after hostOps1_1 (StableHlo.after hostOps1 (W6 m ρ c))) (Proc.devRef .tc main_arg7) = _
  after_results_simp
  exact Stage0.arg7_exit m ρ c

theorem arg8_exit : W10 m ρ c (Proc.devRef .tc main_arg8) = A8 m c := by
  rw [W10_of_ne m ρ c main_arg8 (by decide +kernel)]
  show StableHlo.after hostOps1_2 (StableHlo.after hostOps1_1 (StableHlo.after hostOps1 (W6 m ρ c))) (Proc.devRef .tc main_arg8) = _
  after_results_simp
  exact Stage0.arg8_exit m ρ c

theorem arg9_exit : W10 m ρ c (Proc.devRef .tc main_arg9) = A9 m c := by
  rw [W10_of_ne m ρ c main_arg9 (by decide +kernel)]
  show StableHlo.after hostOps1_2 (StableHlo.after hostOps1_1 (StableHlo.after hostOps1 (W6 m ρ c))) (Proc.devRef .tc main_arg9) = _
  after_results_simp
  exact Stage0.arg9_exit m ρ c

theorem arg10_exit : W10 m ρ c (Proc.devRef .tc main_arg10) = A10 m c := by
  rw [W10_of_ne m ρ c main_arg10 (by decide +kernel)]
  show StableHlo.after hostOps1_2 (StableHlo.after hostOps1_1 (StableHlo.after hostOps1 (W6 m ρ c))) (Proc.devRef .tc main_arg10) = _
  after_results_simp
  exact Stage0.arg10_exit m ρ c

theorem arg11_exit : W10 m ρ c (Proc.devRef .tc main_arg11) = A11 m c := by
  rw [W10_of_ne m ρ c main_arg11 (by decide +kernel)]
  show StableHlo.after hostOps1_2 (StableHlo.after hostOps1_1 (StableHlo.after hostOps1 (W6 m ρ c))) (Proc.devRef .tc main_arg11) = _
  after_results_simp
  exact Stage0.arg11_exit m ρ c

theorem arg12_exit : W10 m ρ c (Proc.devRef .tc main_arg12) = A12 m c := by
  rw [W10_of_ne m ρ c main_arg12 (by decide +kernel)]
  show StableHlo.after hostOps1_2 (StableHlo.after hostOps1_1 (StableHlo.after hostOps1 (W6 m ρ c))) (Proc.devRef .tc main_arg12) = _
  after_results_simp
  exact Stage0.arg12_exit m ρ c

/-- The in-degree column, in the spelling of the reference's second layer. -/
theorem indeg_exit : @Eq (FVec Ideal S100000x1 .f32) (W10 m ρ c (Proc.devRef .tc main_v12)) (val_main_v57 (F := Ideal) (A2 m c)) := by
  rw [W10_of_ne m ρ c main_v12 (by decide +kernel)]
  show StableHlo.after hostOps1_2 (StableHlo.after hostOps1_1 (StableHlo.after hostOps1 (W6 m ρ c))) (Proc.devRef .tc main_v12) = _
  after_results_simp
  exact Stage0.indeg_exit' m ρ c

end Cert.KernelIdeal.Stage1

end
-- ==== Proof.EdgeMlp.lean ====
/-
  The edge predictor on one edge.

  An edge's input is a row x of 128 numbers (the two endpoint embeddings side by side). The predictor applies two dense
  layers with ReLU, 128 → 64 → 32, then a third dense layer 32 → 1 without ReLU, then the logistic function
  1 / (1 + e^(-s)). All of it is row-wise: the score of edge r depends on the input array only through its row r.
  The two programs spell this differently — one multiplies into a zero accumulator, lays one-row biases along the rows and
  applies the logistic function as one operation; the other uses matrix products without an accumulator, lays bias vectors out
  in two steps and writes the logistic function as 1 / (1 + exp (-s)) — and both read, at row r, as the same number.
  Changes of float format between the layers are the identity on the extended reals.
-/
import proofs.«114246_j46600395161977_1_alg».proof.Proof.LibDense
import Idealize.ShloMosaic.Lib.IdealHost

noncomputable section

namespace Cert.EdgeMlp

open Idealize.ShloMosaic Idealize.ShloMosaic.ValueIdx Cert.LibDense

/-- The score of one edge with input row x: the logistic function of the third layer's single output,
    the first two layers being dense layers with ReLU. -/
def score (x : Fin 128 → EReal) (W1 : Fin 128 → Fin 64 → EReal) (b1 : Fin 64 → EReal)
    (W2 : Fin 64 → Fin 32 → EReal) (b2 : Fin 32 → EReal) (W3 : Fin 32 → Fin 1 → EReal) (b3 : Fin 1 → EReal) : EReal :=
  Ideal.logistic (∑ k : Fin 32, dense (dense x W1 b1) W2 b2 k * W3 k 0 + b3 0)

/-- The score depends on the input row only through its entries. -/
theorem score_congr {x x' : Fin 128 → EReal} (e : ∀ k, x k = x' k) (W1 : Fin 128 → Fin 64 → EReal) (b1 : Fin 64 → EReal)
    (W2 : Fin 64 → Fin 32 → EReal) (b2 : Fin 32 → EReal) (W3 : Fin 32 → Fin 1 → EReal) (b3 : Fin 1 → EReal) :
    score x W1 b1 W2 b2 W3 b3 = score x' W1 b1 W2 b2 W3 b3 := by
  rw [show x = x' from funext e]

variable {M : ℕ}

/-- The predictor over M edges at once, in the spelling with zero accumulators, one-row biases and the logistic function
    as one operation, read at edge p: the score of row p. The intermediate layers are named so that the statement
    stays readable; each is the layer before it multiplied, biased and clipped at zero. -/
theorem kernel_score_apply
    (d1 : DotDims ⟨2, ![M, 128]⟩ ⟨2, ![128, 64]⟩ ⟨2, ![M, 64]⟩) (hd1 : d1 = DotDims.plain M 128 64)
    (d2 : DotDims ⟨2, ![M, 64]⟩ ⟨2, ![64, 32]⟩ ⟨2, ![M, 32]⟩) (hd2 : d2 = DotDims.plain M 64 32)
    (d3 : DotDims ⟨2, ![M, 32]⟩ ⟨2, ![32, 1]⟩ ⟨2, ![M, 1]⟩) (hd3 : d3 = DotDims.plain M 32 1)
    (e : FVec Ideal ⟨2, ![M, 128]⟩ .bf16) (W1 : FVec Ideal ⟨2, ![128, 64]⟩ .bf16) (b1 : FVec Ideal ⟨2, ![1, 64]⟩ .f32)
    (W2 : FVec Ideal ⟨2, ![64, 32]⟩ .bf16) (b2 : FVec Ideal ⟨2, ![1, 32]⟩ .f32)
    (W3 : FVec Ideal ⟨2, ![32, 1]⟩ .bf16) (b3 : FVec Ideal ⟨2, ![1, 1]⟩ .f32)
    (hb1 : (⟨2, ![1, 64]⟩ : Shape).Broadcasts ⟨2, ![M, 64]⟩) (hb2 : (⟨2, ![1, 32]⟩ : Shape).Broadcasts ⟨2, ![M, 32]⟩)
    (hb3 : (⟨2, ![1, 1]⟩ : Shape).Broadcasts ⟨2, ![M, 1]⟩) (ht : FTy.bf16.bits < FTy.f32.bits)
    (L1 : FVec Ideal ⟨2, ![M, 64]⟩ .f32)
    (hL1 : L1 = maximumf (addf (matmul d1 none e W1 (constant (F := Ideal) ⟨2, ![M, 64]⟩ .f32 0x00000000#32)) (broadcastTo ⟨2, ![M, 64]⟩ b1 hb1))
        (broadcast ⟨2, ![M, 64]⟩ (Scalar.ofBits (F := Ideal) .f32 0x00000000#32)))
    (L2 : FVec Ideal ⟨2, ![M, 32]⟩ .f32)
    (hL2 : L2 = maximumf (addf (matmul d2 none (truncf .bf16 L1 ht) W2 (constant (F := Ideal) ⟨2, ![M, 32]⟩ .f32 0x00000000#32))
          (broadcastTo ⟨2, ![M, 32]⟩ b2 hb2))
        (broadcast ⟨2, ![M, 32]⟩ (Scalar.ofBits (F := Ideal) .f32 0x00000000#32)))
    (p : Fin M) (q : Fin 1) :
    logistic (addf (matmul d3 none (truncf .bf16 L2 ht) W3 (constant (F := Ideal) ⟨2, ![M, 1]⟩ .f32 0x00000000#32))
        (broadcastTo ⟨2, ![M, 1]⟩ b3 hb3)) (ix2 p q)
      = score (fun k => e (ix2 p k)) (fun k j => W1 (ix2 k j)) (fun j => b1 (ix2 (0 : Fin 1) j))
          (fun k j => W2 (ix2 k j)) (fun j => b2 (ix2 (0 : Fin 1) j)) (fun k j => W3 (ix2 k j)) (fun j => b3 (ix2 (0 : Fin 1) j)) := by
  subst hd3
  obtain rfl : q = 0 := Subsingleton.elim _ _
  have h1 : ∀ j : Fin 64, L1 (ix2 p j)
      = dense (fun k => e (ix2 p k)) (fun k j => W1 (ix2 k j)) (fun j => b1 (ix2 (0 : Fin 1) j)) j := fun j => by
    rw [hL1]; exact kernel_layer_apply d1 hd1 none e W1 b1 hb1 p j _ (fun _ => rfl)
  have h2 : ∀ j : Fin 32, L2 (ix2 p j)
      = dense (dense (fun k => e (ix2 p k)) (fun k j => W1 (ix2 k j)) (fun j => b1 (ix2 (0 : Fin 1) j)))
          (fun k j => W2 (ix2 k j)) (fun j => b2 (ix2 (0 : Fin 1) j)) j := fun j => by
    rw [hL2]; exact kernel_layer_apply d2 hd2 none (truncf .bf16 L1 ht) W2 b2 hb2 p j _ (fun k => h1 k)
  show Ideal.logistic (FloatOps.matmul (DotDims.plain M 32 1) none (truncf .bf16 L2 ht) W3 (constant ⟨2, ![M, 1]⟩ .f32 0x00000000#32) (ix2 p 0)
      + broadcastTo ⟨2, ![M, 1]⟩ b3 hb3 (ix2 p 0)) = _
  rw [matmul_plain_zero_apply, broadcastTo_1b_ab_apply]
  unfold score
  refine congrArg Ideal.logistic (congrArg (· + b3 (ix2 (0 : Fin 1) (0 : Fin 1))) (Finset.sum_congr rfl fun k _ => ?_))
  exact congrArg (· * W3 (ix2 k (0 : Fin 1))) (h2 k)

/-- The same predictor in the spelling with plain matrix products, bias vectors laid out in two steps, and the logistic
    function written 1 / (1 + exp (-s)), read at edge r: the score of row r. -/
theorem host_score_apply
    (d1 : DotDims ⟨2, ![M, 128]⟩ ⟨2, ![128, 64]⟩ ⟨2, ![M, 64]⟩) (hd1 : d1 = DotDims.plain M 128 64)
    (d2 : DotDims ⟨2, ![M, 64]⟩ ⟨2, ![64, 32]⟩ ⟨2, ![M, 32]⟩) (hd2 : d2 = DotDims.plain M 64 32)
    (d3 : DotDims ⟨2, ![M, 32]⟩ ⟨2, ![32, 1]⟩ ⟨2, ![M, 1]⟩) (hd3 : d3 = DotDims.plain M 32 1)
    (e : FVec Ideal ⟨2, ![M, 128]⟩ .f32) (W1 : FVec Ideal ⟨2, ![128, 64]⟩ .f32) (b1 : FVec Ideal ⟨1, ![64]⟩ .f32)
    (W2 : FVec Ideal ⟨2, ![64, 32]⟩ .f32) (b2 : FVec Ideal ⟨1, ![32]⟩ .f32)
    (W3 : FVec Ideal ⟨2, ![32, 1]⟩ .f32) (b3 : FVec Ideal ⟨1, ![1]⟩ .f32)
    (h11 : (⟨1, ![64]⟩ : Shape).BroadcastsInDim ⟨2, ![1, 64]⟩ ![1]) (h12 : (⟨2, ![1, 64]⟩ : Shape).BroadcastsInDim ⟨2, ![M, 64]⟩ ![0, 1])
    (h10 : (⟨0, ![]⟩ : Shape).BroadcastsInDim ⟨2, ![M, 64]⟩ ![])
    (h21 : (⟨1, ![32]⟩ : Shape).BroadcastsInDim ⟨2, ![1, 32]⟩ ![1]) (h22 : (⟨2, ![1, 32]⟩ : Shape).BroadcastsInDim ⟨2, ![M, 32]⟩ ![0, 1])
    (h20 : (⟨0, ![]⟩ : Shape).BroadcastsInDim ⟨2, ![M, 32]⟩ ![])
    (h31 : (⟨1, ![1]⟩ : Shape).BroadcastsInDim ⟨2, ![1, 1]⟩ ![1]) (h32 : (⟨2, ![1, 1]⟩ : Shape).BroadcastsInDim ⟨2, ![M, 1]⟩ ![0, 1])
    (h30 : (⟨0, ![]⟩ : Shape).BroadcastsInDim ⟨2, ![M, 1]⟩ ![])
    (L1 : FVec Ideal ⟨2, ![M, 64]⟩ .f32)
    (hL1 : L1 = maximumf (addf (Host.dotGeneral d1 none e W1)
          (broadcastInDim ⟨2, ![M, 64]⟩ ![0, 1] h12 (broadcastInDim ⟨2, ![1, 64]⟩ ![1] h11 b1)))
        (broadcastInDim ⟨2, ![M, 64]⟩ ![] h10 (constant (F := Ideal) ⟨0, ![]⟩ .f32 0x00000000#32)))
    (L2 : FVec Ideal ⟨2, ![M, 32]⟩ .f32)
    (hL2 : L2 = maximumf (addf (Host.dotGeneral d2 none L1 W2)
          (broadcastInDim ⟨2, ![M, 32]⟩ ![0, 1] h22 (broadcastInDim ⟨2, ![1, 32]⟩ ![1] h21 b2)))
        (broadcastInDim ⟨2, ![M, 32]⟩ ![] h20 (constant (F := Ideal) ⟨0, ![]⟩ .f32 0x00000000#32)))
    (r : Fin M) (q : Fin 1) :
    Host.divf (broadcastInDim ⟨2, ![M, 1]⟩ ![] h30 (constant (F := Ideal) ⟨0, ![]⟩ .f32 0x3F800000#32))
        (addf (broadcastInDim ⟨2, ![M, 1]⟩ ![] h30 (constant (F := Ideal) ⟨0, ![]⟩ .f32 0x3F800000#32))
          (Host.exp (Host.negf (addf (Host.dotGeneral d3 none L2 W3)
            (broadcastInDim ⟨2, ![M, 1]⟩ ![0, 1] h32 (broadcastInDim ⟨2, ![1, 1]⟩ ![1] h31 b3)))))) (ix2 r q)
      = score (fun k => e (ix2 r k)) (fun k j => W1 (ix2 k j)) (fun j => b1 (ix1 j))
          (fun k j => W2 (ix2 k j)) (fun j => b2 (ix1 j)) (fun k j => W3 (ix2 k j)) (fun j => b3 (ix1 j)) := by
  subst hd3
  obtain rfl : q = 0 := Subsingleton.elim _ _
  have h1 : ∀ j : Fin 64, L1 (ix2 r j)
      = dense (fun k => e (ix2 r k)) (fun k j => W1 (ix2 k j)) (fun j => b1 (ix1 j)) j := fun j => by
    rw [hL1]; exact host_layer_apply d1 hd1 none e W1 b1 h11 h12 h10 r j _ (fun _ => rfl)
  have h2 : ∀ j : Fin 32, L2 (ix2 r j)
      = dense (dense (fun k => e (ix2 r k)) (fun k j => W1 (ix2 k j)) (fun j => b1 (ix1 j)))
          (fun k j => W2 (ix2 k j)) (fun j => b2 (ix1 j)) j := fun j => by
    rw [hL2]; exact host_layer_apply d2 hd2 none L1 W2 b2 h21 h22 h20 r j _ (fun k => h1 k)
  have e0 := broadcastInDim_apply ![] h30 (constant (F := Ideal) ⟨0, ![]⟩ .f32 0x3F800000#32) (ix2 r (0 : Fin 1)) (fun a => a.elim0)
    (fun a => a.elim0)
  have e2 := broadcastInDim_oneRow_apply h32 (broadcastInDim ⟨2, ![1, 1]⟩ ![1] h31 b3) r (0 : Fin 1)
  have e1 := broadcastInDim_apply ![1] h31 b3 (ix2 (0 : Fin 1) (0 : Fin 1)) (ix1 (0 : Fin 1)) (fun a => by
    match a with
    | ⟨0, _⟩ => rfl)
  show Ideal.div (broadcastInDim ⟨2, ![M, 1]⟩ ![] h30 (constant (F := Ideal) ⟨0, ![]⟩ .f32 0x3F800000#32) (ix2 r 0))
      (broadcastInDim ⟨2, ![M, 1]⟩ ![] h30 (constant (F := Ideal) ⟨0, ![]⟩ .f32 0x3F800000#32) (ix2 r 0)
        + Ideal.exp (-(FloatOps.dotGeneral (DotDims.plain M 32 1) none .single L2 W3 (ix2 r 0)
            + broadcastInDim ⟨2, ![M, 1]⟩ ![0, 1] h32 (broadcastInDim ⟨2, ![1, 1]⟩ ![1] h31 b3) (ix2 r 0)))) = _
  rw [e0, dotGeneral_plain_apply, e2, e1]
  show Ideal.div (Ideal.ofBits .f32 0x3F800000#32) (Ideal.ofBits .f32 0x3F800000#32 + Ideal.exp (-(_ + b3 (ix1 (0 : Fin 1))))) = _
  rw [Ideal.ofBits_one_f32]
  unfold score Ideal.logistic
  refine congrArg (fun s => Ideal.div 1 (1 + Ideal.exp (-s))) (congrArg (· + b3 (ix1 (0 : Fin 1))) (Finset.sum_congr rfl fun k _ => ?_))
  exact congrArg (· * W3 (ix2 k (0 : Fin 1))) (h2 k)

end Cert.EdgeMlp

end
-- ==== Proof.Region2.lean ====
/-
  The edge predictor's region, as one whole-array function.

  The region scores 1600000 edges, eight thousand at a time: grid point t holds rows 8000·t … 8000·t + 7999 of the edge
  inputs E (1600000 × 128) and all of the three weight matrices and three one-row biases, and writes rows 8000·t … of the
  1600000 × 1 result. Row p of a tile's result is the predictor's score of row p of the tile, that is of row 8000·t + p of
  E, so what point t writes back is the block of ONE whole-array function — row r ↦ the score of row r of E — and the two
  hundred blocks tile the result array.
-/
import proofs.«114246_j46600395161977_1_alg».proof.Proof.Gen.KernelIdeal.Frame
import proofs.«114246_j46600395161977_1_alg».proof.Proof.EdgeMlp
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The scores of all edges: entry (r, ·) is the predictor's score of row r of the edge inputs. -/
def scores (E : FVec Ideal S1600000x128 .bf16) (W1 : FVec Ideal S128x64 .bf16) (b1 : FVec Ideal S1x64 .f32)
    (W2 : FVec Ideal S64x32 .bf16) (b2 : FVec Ideal S1x32 .f32) (W3 : FVec Ideal S32x1 .bf16) (b3 : FVec Ideal S1x1 .f32) :
    FVec Ideal S1600000x1 .f32 := fun i =>
  Cert.EdgeMlp.score (fun k => E (ix2 (i 0) k)) (fun k j => W1 (ix2 k j)) (fun j => b1 (ix2 (0 : Fin 1) j))
    (fun k j => W2 (ix2 k j)) (fun j => b2 (ix2 (0 : Fin 1) j)) (fun k j => W3 (ix2 k j)) (fun j => b3 (ix2 (0 : Fin 1) j))

/-- A tile's result at (p, ·) is the score of the tile's row p. -/
theorem tile_apply (x0 : Vec Ideal S8000x128 .bf16) (x1 : Vec Ideal S128x64 .bf16) (x2 : Vec Ideal S1x64 .f32)
    (x3 : Vec Ideal S64x32 .bf16) (x4 : Vec Ideal S1x32 .f32) (x5 : Vec Ideal S32x1 .bf16) (x6 : Vec Ideal S1x1 .f32)
    (p : Fin 8000) (q : Fin 1) :
    k2_pay1 x0 x1 x2 x3 x4 x5 x6 (ix2 p q)
      = Cert.EdgeMlp.score (fun k => x0 (ix2 p k)) (fun k j => x1 (ix2 k j)) (fun j => x2 (ix2 (0 : Fin 1) j))
          (fun k j => x3 (ix2 k j)) (fun j => x4 (ix2 (0 : Fin 1) j)) (fun k j => x5 (ix2 k j)) (fun j => x6 (ix2 (0 : Fin 1) j)) := by
  unfold k2_pay1
  simp only [shapeCast_self]
  exact Cert.EdgeMlp.kernel_score_apply dot_S8000x128_S128x64_S8000x64_1_0_0_1_n_n rfl
    dot_S8000x64_S64x32_S8000x32_1_0_0_1_n_n rfl dot_S8000x32_S32x1_S8000x1_1_0_0_1_n_n rfl
    x0 x1 x2 x3 x4 x5 x6 _ _ _ _ _ rfl _ rfl p q

/-- A tile whose rows are rows 8000·n … of E, scored with the same weights and biases, is rows 8000·n … of the scores. -/
theorem tile_eq_scores (x0 : Vec Ideal S8000x128 .bf16) (x1 : Vec Ideal S128x64 .bf16) (x2 : Vec Ideal S1x64 .f32)
    (x3 : Vec Ideal S64x32 .bf16) (x4 : Vec Ideal S1x32 .f32) (x5 : Vec Ideal S32x1 .bf16) (x6 : Vec Ideal S1x1 .f32)
    (E : FVec Ideal S1600000x128 .bf16) (W1 : FVec Ideal S128x64 .bf16) (b1 : FVec Ideal S1x64 .f32)
    (W2 : FVec Ideal S64x32 .bf16) (b2 : FVec Ideal S1x32 .f32) (W3 : FVec Ideal S32x1 .bf16) (b3 : FVec Ideal S1x1 .f32) (n : ℕ)
    (hx0 : ∀ (p : Fin 8000) (k : Fin 128) (r : Fin 1600000), r.val = 8000 * n + p.val → x0 (ix2 p k) = E (ix2 r k))
    (h1 : x1 = W1) (h2 : x2 = b1) (h3 : x3 = W2) (h4 : x4 = b2) (h5 : x5 = W3) (h6 : x6 = b3)
    (y : S8000x1.Idx) (i : S1600000x1.Idx) (hi0 : (i 0).val = 8000 * n + (y 0).val) :
    k2_pay1 x0 x1 x2 x3 x4 x5 x6 y = scores E W1 b1 W2 b2 W3 b3 i := by
  subst h1 h2 h3 h4 h5 h6
  obtain ⟨p, q, rfl⟩ : ∃ (p : Fin 8000) (q : Fin 1), y = ix2 p q := ⟨y 0, y 1, eq_ix2 y⟩
  obtain ⟨r, s, rfl⟩ : ∃ (r : Fin 1600000) (s : Fin 1), i = ix2 r s := ⟨i 0, i 1, eq_ix2 i⟩
  rw [tile_apply]
  exact Cert.EdgeMlp.score_congr (fun k => hx0 p k r hi0) _ _ _ _ _ _

/-- The printed index maps over the grid: the edge-input and result windows' block row is the point, their block column
    0; each weight and bias window stays at block (0, 0). -/
theorem idx_facts : ∀ t : Fin cfg2.N, (win2_0.index t (0 : Fin 2) = t.val ∧ win2_0.index t (1 : Fin 2) = 0)
    ∧ (win2_1.index t (0 : Fin 2) = 0 ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = t.val ∧ win2_7.index t (1 : Fin 2) = 0) :=
  (by decide +kernel : ∀ t : Fin grid2.N, _)

/-- The edge-input window's block at point t, at (p, k), is E at row 8000·t + p. -/
theorem eblk_apply (c : Dev nD) (t : Fin cfg2.N) (p : Fin 8000) (k : Fin 128) (r : Fin 1600000)
    (hr : r.val = 8000 * t.val + p.val) :
    (iblk2 V c 0 t : Vec Ideal S8000x128 .bf16) (ix2 p k) = (V c main_v69 : FVec Ideal S1600000x128 .bf16) (ix2 r k) := by
  obtain ⟨⟨e0, e1⟩, -⟩ := idx_facts t
  unfold iblk2
  rw [View.read_apply]
  show V c main_v69 _ = V c main_v69 _
  congr 1
  funext a
  apply Fin.ext
  match a with
  | ⟨0, _⟩ => show win2_0.index t (0 : Fin 2) * 8000 + 1 * p.val = r.val; rw [e0, hr]; omega
  | ⟨1, _⟩ => show win2_0.index t (1 : Fin 2) * 128 + 1 * k.val = k.val; rw [e1]; omega

/-- The first weight window's block at any point is the whole 128 × 64 matrix. -/
theorem w1blk (c : Dev nD) (t : Fin cfg2.N) : (iblk2 V c 1 t : Vec Ideal S128x64 .bf16) = V c main_v70 := by
  obtain ⟨-, ⟨e0, e1⟩, -⟩ := idx_facts t
  funext y
  unfold iblk2
  rw [View.read_apply]
  show V c main_v70 _ = V c main_v70 y
  congr 1
  funext a
  apply Fin.ext
  match a with
  | ⟨0, _⟩ => show win2_1.index t (0 : Fin 2) * 128 + 1 * (y 0).val = (y 0).val; rw [e0]; omega
  | ⟨1, _⟩ => show win2_1.index t (1 : Fin 2) * 64 + 1 * (y 1).val = (y 1).val; rw [e1]; omega

/-- The first bias window's block at any point is the whole one-row bias. -/
theorem b1blk (c : Dev nD) (t : Fin cfg2.N) : (iblk2 V c 2 t : Vec Ideal S1x64 .f32) = V c main_v73 := by
  obtain ⟨-, -, ⟨e0, e1⟩, -⟩ := idx_facts t
  funext y
  unfold iblk2
  rw [View.read_apply]
  show V c main_v73 _ = V c main_v73 y
  congr 1
  funext a
  apply Fin.ext
  match a with
  | ⟨0, _⟩ => show win2_2.index t (0 : Fin 2) * 1 + 1 * (y 0).val = (y 0).val; rw [e0]; omega
  | ⟨1, _⟩ => show win2_2.index t (1 : Fin 2) * 64 + 1 * (y 1).val = (y 1).val; rw [e1]; omega

/-- The second weight window's block at any point is the whole 64 × 32 matrix. -/
theorem w2blk (c : Dev nD) (t : Fin cfg2.N) : (iblk2 V c 3 t : Vec Ideal S64x32 .bf16) = V c main_v71 := by
  obtain ⟨-, -, -, ⟨e0, e1⟩, -⟩ := idx_facts t
  funext y
  unfold iblk2
  rw [View.read_apply]
  show V c main_v71 _ = V c main_v71 y
  congr 1
  funext a
  apply Fin.ext
  match a with
  | ⟨0, _⟩ => show win2_3.index t (0 : Fin 2) * 64 + 1 * (y 0).val = (y 0).val; rw [e0]; omega
  | ⟨1, _⟩ => show win2_3.index t (1 : Fin 2) * 32 + 1 * (y 1).val = (y 1).val; rw [e1]; omega

/-- The second bias window's block at any point is the whole one-row bias. -/
theorem b2blk (c : Dev nD) (t : Fin cfg2.N) : (iblk2 V c 4 t : Vec Ideal S1x32 .f32) = V c main_v74 := by
  obtain ⟨-, -, -, -, ⟨e0, e1⟩, -⟩ := idx_facts t
  funext y
  unfold iblk2
  rw [View.read_apply]
  show V c main_v74 _ = V c main_v74 y
  congr 1
  funext a
  apply Fin.ext
  match a with
  | ⟨0, _⟩ => show win2_4.index t (0 : Fin 2) * 1 + 1 * (y 0).val = (y 0).val; rw [e0]; omega
  | ⟨1, _⟩ => show win2_4.index t (1 : Fin 2) * 32 + 1 * (y 1).val = (y 1).val; rw [e1]; omega

/-- The third weight window's block at any point is the whole 32 × 1 matrix. -/
theorem w3blk (c : Dev nD) (t : Fin cfg2.N) : (iblk2 V c 5 t : Vec Ideal S32x1 .bf16) = V c main_v72 := by
  obtain ⟨-, -, -, -, -, ⟨e0, e1⟩, -⟩ := idx_facts t
  funext y
  unfold iblk2
  rw [View.read_apply]
  show V c main_v72 _ = V c main_v72 y
  congr 1
  funext a
  apply Fin.ext
  match a with
  | ⟨0, _⟩ => show win2_5.index t (0 : Fin 2) * 32 + 1 * (y 0).val = (y 0).val; rw [e0]; omega
  | ⟨1, _⟩ => show win2_5.index t (1 : Fin 2) * 1 + 1 * (y 1).val = (y 1).val; rw [e1]; omega

/-- The third bias window's block at any point is the whole 1 × 1 bias. -/
theorem b3blk (c : Dev nD) (t : Fin cfg2.N) : (iblk2 V c 6 t : Vec Ideal S1x1 .f32) = V c main_v75 := by
  obtain ⟨-, -, -, -, -, -, ⟨e0, e1⟩, -⟩ := idx_facts t
  funext y
  unfold iblk2
  rw [View.read_apply]
  show V c main_v75 _ = V c main_v75 y
  congr 1
  funext a
  apply Fin.ext
  match a with
  | ⟨0, _⟩ => show win2_6.index t (0 : Fin 2) * 1 + 1 * (y 0).val = (y 0).val; rw [e0]; omega
  | ⟨1, _⟩ => show win2_6.index t (1 : Fin 2) * 1 + 1 * (y 1).val = (y 1).val; rw [e1]; omega

/-- What point t writes back is block t of the scores. -/
theorem flushed_eq (c : Dev nD) (t : Fin cfg2.N) :
    (dat2 V c).flushed 7 t = ((cfg2.win 7).blk t).view.read (Elt Ideal)
      (scores (V c main_v69) (V c main_v70) (V c main_v73) (V c main_v71) (V c main_v74) (V c main_v72) (V c main_v75)) := by
  show (cfg2.win 7).cut (grid2.coords t) ((dat2 V c).after 7 t) = _
  rw [after2_7]
  unfold out2_7
  rw [View.canon_unit_zero hz]
  simp only [View.ld_unit_zero (S := S8000x128) hz, View.ld_unit_zero (S := S128x64) hz, View.ld_unit_zero (S := S1x64) hz,
    View.ld_unit_zero (S := S64x32) hz, View.ld_unit_zero (S := S1x32) hz, View.ld_unit_zero (S := S32x1) hz,
    View.ld_unit_zero (S := S1x1) hz]
  obtain ⟨-, -, -, -, -, -, -, ⟨e0, e1⟩⟩ := idx_facts t
  funext j
  show k2_pay1 (iblk2 V c 0 t) (iblk2 V c 1 t) (iblk2 V c 2 t) (iblk2 V c 3 t) (iblk2 V c 4 t) (iblk2 V c 5 t) (iblk2 V c 6 t) j
    = scores (V c main_v69) (V c main_v70) (V c main_v73) (V c main_v71) (V c main_v74) (V c main_v72) (V c main_v75)
        (((cfg2.win 7).blk t).view.emb j)
  refine tile_eq_scores (iblk2 V c 0 t) (iblk2 V c 1 t) (iblk2 V c 2 t) (iblk2 V c 3 t) (iblk2 V c 4 t) (iblk2 V c 5 t) (iblk2 V c 6 t)
    (V c main_v69) (V c main_v70) (V c main_v73) (V c main_v71) (V c main_v74) (V c main_v72) (V c main_v75) t.val
    (fun p k r hr => eblk_apply V c t p k r hr) (w1blk V c t) (b1blk V c t) (w2blk V c t) (b2blk V c t) (w3blk V c t) (b3blk V c t)
    j (((cfg2.win 7).blk t).view.emb j) ?_
  show win2_7.index t (0 : Fin 2) * 8000 + 1 * (j 0).val = 8000 * t.val + (j 0).val
  rw [e0]; omega

/-- An index of the result array is in point t's block iff each coordinate is in the block's range on its axis. -/
theorem mem_blk (t : Fin cfg2.N) (i : S1600000x1.Idx) :
    i ∈ ((cfg2.win 7).blk t).view.set ↔ ∀ a : Fin 2, win2_7.index t a * S8000x1.size a ≤ (i a).val
      ∧ (i a).val < win2_7.index t a * S8000x1.size a + S8000x1.size a := by
  show i ∈ ((View.whole main_v76).slice (win2_7.rect t)).set ↔ _
  rw [View.set_slice_whole, Rect.mem_set_unit]
  exact Iff.rfl

/-- Row r lies in the block of point r / 8000: the two hundred blocks tile the array. -/
theorem cover (i : S1600000x1.Idx) : ∃ t : Fin cfg2.N, (cfg2.win 7).flush t = true ∧ i ∈ ((cfg2.win 7).blk t).view.set := by
  have hi0 : (i 0).val < 1600000 := (i 0).isLt
  have hi1 : (i 1).val < 1 := (i 1).isLt
  have hN : cfg2.N = 200 := N_2
  refine ⟨⟨(i 0).val / 8000, by rw [hN]; omega⟩, flush2_7 _, ?_⟩
  rw [mem_blk]
  obtain ⟨-, -, -, -, -, -, -, ⟨e0, e1⟩⟩ := idx_facts ⟨(i 0).val / 8000, by rw [hN]; omega⟩
  intro a
  match a with
  | ⟨0, _⟩ =>
    show win2_7.index ⟨(i 0).val / 8000, _⟩ (0 : Fin 2) * 8000 ≤ (i 0).val
      ∧ (i 0).val < win2_7.index ⟨(i 0).val / 8000, _⟩ (0 : Fin 2) * 8000 + 8000
    rw [e0]; show (i 0).val / 8000 * 8000 ≤ (i 0).val ∧ (i 0).val < (i 0).val / 8000 * 8000 + 8000; omega
  | ⟨1, _⟩ =>
    show win2_7.index ⟨(i 0).val / 8000, _⟩ (1 : Fin 2) * 1 ≤ (i 1).val
      ∧ (i 1).val < win2_7.index ⟨(i 0).val / 8000, _⟩ (1 : Fin 2) * 1 + 1
    rw [e1]; omega

/-- The result array after the region: the scores of the arrays as the region finds them. -/
theorem final (c : Dev nD) : (dat2 V c).arrAt 7 cfg2.N
    = scores (V c main_v69) (V c main_v70) (V c main_v73) (V c main_v71) (V c main_v74) (V c main_v72) (V c main_v75) :=
  (dat2 V c).arrAt_eq_of_cover 7 _ (fun t _ => flushed_eq V c t) cover

end Cert.KernelIdeal.Region2

end
-- ==== Proof.Stage2.lean ====
/-
  The edge predictor in the two programs.

  After its second region the kernel's program finishes the second graph layer on the host — gather at the sources,
  scatter-add at the destinations, scale by the in-degree column, add the second bias — then gathers the node embeddings at
  each edge's two endpoints and lays them side by side: the reference's own operations on the same operands, the second
  product being equal by the previous stage. So the third region finds the reference's edge inputs, and the predictor's
  three weight matrices and its three biases (the biases reshaped to one-row matrices). It leaves, at edge r, the
  predictor's score of row r of the edge inputs; the reference's last operations — three matrix products with bias and
  ReLU, then 1 / (1 + exp (-s)) — compute, at edge r, the same score of the same row.
-/
import proofs.«114246_j46600395161977_1_alg».proof.Proof.Stage1
import proofs.«114246_j46600395161977_1_alg».proof.Proof.Region2
import Idealize.ShloMosaic.Lib.ValueLayout

set_option maxRecDepth 16384

noncomputable section

open Idealize.ShloMosaic Idealize.ShloMosaic.TcCoe Idealize.SL.Sem Idealize.ShloMosaic.ValueIdx Idealize.ShloMosaic.StableHlo

namespace Cert.KernelIdeal.Stage2

open Cert.KernelIdeal Cert.KernelIdeal.Gen Cert.KernelIdeal.Stage0
open Cert.ReferenceIdeal.Read

/-! ## The reference's last stretch, row by row -/

section Reference

open Cert.ReferenceIdeal in
/-- The reference's result at edge r is the predictor's score of row r of its edge inputs. -/
theorem ref_scores_apply (x0 : FVec Ideal Cert.ReferenceIdeal.S100000x128 .f32) (x1 x2 : IVec Cert.ReferenceIdeal.S1600000 32)
    (x3 : FVec Ideal Cert.ReferenceIdeal.S128x128 .f32) (x4 : FVec Ideal Cert.ReferenceIdeal.S128 .f32)
    (x5 : FVec Ideal Cert.ReferenceIdeal.S128x64 .f32) (x6 : FVec Ideal Cert.ReferenceIdeal.S64 .f32)
    (x7 : FVec Ideal Cert.ReferenceIdeal.S128x64 .f32) (x8 : FVec Ideal Cert.ReferenceIdeal.S64 .f32)
    (x9 : FVec Ideal Cert.ReferenceIdeal.S64x32 .f32) (x10 : FVec Ideal Cert.ReferenceIdeal.S32 .f32)
    (x11 : FVec Ideal Cert.ReferenceIdeal.S32x1 .f32) (x12 : FVec Ideal Cert.ReferenceIdeal.S1 .f32) (r : Fin 1600000) (q : Fin 1) :
    val_main_v97 (F := Ideal) x0 x1 x2 x3 x4 x5 x6 x7 x8 x9 x10 x11 x12 (ix2 r q)
      = Cert.EdgeMlp.score (fun k => val_main_v77 (F := Ideal) x0 x1 x2 x3 x4 x5 x6 (ix2 r k)) (fun k j => x7 (ix2 k j)) (fun j => x8 (ix1 j))
          (fun k j => x9 (ix2 k j)) (fun j => x10 (ix1 j)) (fun k j => x11 (ix2 k j)) (fun j => x12 (ix1 j)) := by
  simp only [val_main_v97, val_main_v96, val_main_cst_19, val_main_v95, val_main_v94, val_main_cst_18, val_main_v93, val_main_v92, val_main_v91, val_main_v88, val_main_v90, val_main_v89]
  exact Cert.EdgeMlp.host_score_apply (M := 1600000)
    dot_S1600000x128_S128x64_S1600000x64_1_0_0_1_n_n rfl dot_S1600000x64_S64x32_S1600000x32_1_0_0_1_n_n rfl
    dot_S1600000x32_S32x1_S1600000x1_1_0_0_1_n_n rfl
    (val_main_v77 (F := Ideal) x0 x1 x2 x3 x4 x5 x6) x7 x8 x9 x10 x11 x12 _ _ _ _ _ _ _ _ _
    (val_main_v82 (F := Ideal) x0 x1 x2 x3 x4 x5 x6 x7 x8)
    (by unfold val_main_v82 val_main_v81 val_main_v78 val_main_v80 val_main_v79 val_main_call5_v0 val_main_call5_cst; rfl)
    (val_main_v87 (F := Ideal) x0 x1 x2 x3 x4 x5 x6 x7 x8 x9 x10)
    (by unfold val_main_v87 val_main_v86 val_main_v83 val_main_v85 val_main_v84 val_main_call6_v0 val_main_call6_cst; rfl)
    r q

end Reference

/-- Two edge-indexed arrays of 64 columns laid side by side (columns 0 … 63 from the first, 64 … 127 from the second). -/
def sideBySide (a b : FVec Ideal S1600000x64 .f32) : FVec Ideal S1600000x128 .f32 :=
  concatenate S1600000x128 1 [⟨S1600000x64, a⟩, ⟨S1600000x64, b⟩] concatenates_S1600000x64_S1600000x64_S1600000x128_d1

theorem sideBySide_eq (a b : FVec Ideal S1600000x64 .f32) :
    concatenate S1600000x128 1 [⟨S1600000x64, a⟩, ⟨S1600000x64, b⟩] concatenates_S1600000x64_S1600000x64_S1600000x128_d1
      = sideBySide a b := rfl

variable (m : (ℓ : Loc nD τ sig) → Buf (Elt Ideal) ℓ) (ρ : Dev nD → PrngReg) (c : Dev nD)

/-! ## What the third region finds -/

/-- The edge inputs: the two endpoints' embeddings side by side, as the reference computes them. -/
theorem edges_entry : @Eq (FVec Ideal S1600000x128 .bf16) (W11 m ρ c (Proc.devRef .tc main_v69))
    (truncf .bf16 (val_main_v77 (F := Ideal) (A0 m c) (A1 m c) (A2 m c) (A3 m c) (A4 m c) (A5 m c) (A6 m c)) bitsLt_bf16_f32) := by
  show StableHlo.after hostOps2 (W10 m ρ c) (Proc.devRef .tc main_v69) = _
  after_results_simp
  rw [sideBySide_eq]
  after_results_simp
  rw [Stage1.product_exit, Stage1.arg1_exit, Stage1.arg2_exit, Stage1.indeg_exit, Stage1.arg6_exit]
  have hR : val_main_v77 (F := Ideal) (A0 m c) (A1 m c) (A2 m c) (A3 m c) (A4 m c) (A5 m c) (A6 m c)
      = sideBySide (val_main_v69 (F := Ideal) (A0 m c) (A1 m c) (A2 m c) (A3 m c) (A4 m c) (A5 m c) (A6 m c)) (val_main_v76 (F := Ideal) (A0 m c) (A1 m c) (A2 m c) (A3 m c) (A4 m c) (A5 m c) (A6 m c)) := rfl
  rw [hR]
  simp only [val_main_v69, val_main_v62, val_main_v59, val_main_v55, val_main_v53, val_main_cst_13, val_main_v54, val_main_v52, val_main_v51, val_main_v50, val_main_v47, val_main_v46, val_main_c_11, val_main_v49, val_main_v48, val_main_c_12, val_main_v58, val_main_v61, val_main_v60, val_main_v68, val_main_v67, val_main_v64, val_main_v63, val_main_c_14, val_main_v66, val_main_v65, val_main_c_15, val_main_v76, val_main_v75, val_main_v74, val_main_v71, val_main_v70, val_main_c_16, val_main_v73, val_main_v72, val_main_c_17]
  rfl

/-- The first weight matrix. -/
theorem weight1_entry : @Eq (FVec Ideal S128x64 .bf16) (W11 m ρ c (Proc.devRef .tc main_v70))
    (truncf .bf16 (A7 m c : FVec Ideal S128x64 .f32) bitsLt_bf16_f32) := by
  show StableHlo.after hostOps2 (W10 m ρ c) (Proc.devRef .tc main_v70) = _
  after_results_simp
  rw [Stage1.arg7_exit]

/-- The second weight matrix. -/
theorem weight2_entry : @Eq (FVec Ideal S64x32 .bf16) (W11 m ρ c (Proc.devRef .tc main_v71))
    (truncf .bf16 (A9 m c : FVec Ideal S64x32 .f32) bitsLt_bf16_f32) := by
  show StableHlo.after hostOps2 (W10 m ρ c) (Proc.devRef .tc main_v71) = _
  after_results_simp
  rw [Stage1.arg9_exit]

/-- The third weight matrix. -/
theorem weight3_entry : @Eq (FVec Ideal S32x1 .bf16) (W11 m ρ c (Proc.devRef .tc main_v72))
    (truncf .bf16 (A11 m c : FVec Ideal S32x1 .f32) bitsLt_bf16_f32) := by
  show StableHlo.after hostOps2 (W10 m ρ c) (Proc.devRef .tc main_v72) = _
  after_results_simp
  rw [Stage1.arg11_exit]

/-- The first bias, reshaped to one row. -/
theorem bias1_entry : @Eq (FVec Ideal S1x64 .f32) (W11 m ρ c (Proc.devRef .tc main_v73))
    (shapeCast S1x64 (A8 m c : FVec Ideal S64 .f32) shapeCasts_S64_S1x64) := by
  have h : @Eq (FVec Ideal S1x64 .f32) (W11 m ρ c (Proc.devRef .tc main_v73))
      (shapeCast S1x64 (W10 m ρ c (Proc.devRef .tc main_arg8) : FVec Ideal S64 .f32) shapeCasts_S64_S1x64) := by
    show StableHlo.after hostOps2 (W10 m ρ c) (Proc.devRef .tc main_v73) = _
    after_results_simp <;> rfl
  rw [h, Stage1.arg8_exit]

/-- The second bias, reshaped to one row. -/
theorem bias2_entry : @Eq (FVec Ideal S1x32 .f32) (W11 m ρ c (Proc.devRef .tc main_v74))
    (shapeCast S1x32 (A10 m c : FVec Ideal S32 .f32) shapeCasts_S32_S1x32) := by
  have h : @Eq (FVec Ideal S1x32 .f32) (W11 m ρ c (Proc.devRef .tc main_v74))
      (shapeCast S1x32 (W10 m ρ c (Proc.devRef .tc main_arg10) : FVec Ideal S32 .f32) shapeCasts_S32_S1x32) := by
    show StableHlo.after hostOps2 (W10 m ρ c) (Proc.devRef .tc main_v74) = _
    after_results_simp <;> rfl
  rw [h, Stage1.arg10_exit]

/-- The third bias, reshaped to one row. -/
theorem bias3_entry : @Eq (FVec Ideal S1x1 .f32) (W11 m ρ c (Proc.devRef .tc main_v75))
    (shapeCast S1x1 (A12 m c : FVec Ideal S1 .f32) shapeCasts_S1_S1x1) := by
  have h : @Eq (FVec Ideal S1x1 .f32) (W11 m ρ c (Proc.devRef .tc main_v75))
      (shapeCast S1x1 (W10 m ρ c (Proc.devRef .tc main_arg12) : FVec Ideal S1 .f32) shapeCasts_S1_S1x1) := by
    show StableHlo.after hostOps2 (W10 m ρ c) (Proc.devRef .tc main_v75) = _
    after_results_simp <;> rfl
  rw [h, Stage1.arg12_exit]

/-! ## What it leaves -/

/-- After the third region its result array holds the reference's result. -/
theorem scores_exit : @Eq (FVec Ideal S1600000x1 .f32) (W12 m ρ c (Proc.devRef .tc main_v76))
    (val_main_v97 (F := Ideal) (A0 m c) (A1 m c) (A2 m c) (A3 m c) (A4 m c) (A5 m c) (A6 m c) (A7 m c) (A8 m c) (A9 m c) (A10 m c) (A11 m c) (A12 m c)) := by
  refine (W12_arr m ρ c 7).trans ?_
  rw [Region2.final (V11 m ρ) c]
  show Region2.scores (W11 m ρ c (Proc.devRef .tc main_v69)) (W11 m ρ c (Proc.devRef .tc main_v70)) (W11 m ρ c (Proc.devRef .tc main_v73))
    (W11 m ρ c (Proc.devRef .tc main_v71)) (W11 m ρ c (Proc.devRef .tc main_v74)) (W11 m ρ c (Proc.devRef .tc main_v72))
    (W11 m ρ c (Proc.devRef .tc main_v75)) = _
  rw [edges_entry, weight1_entry, bias1_entry, weight2_entry, bias2_entry, weight3_entry, bias3_entry]
  funext i
  obtain ⟨r, q, rfl⟩ : ∃ (r : Fin 1600000) (q : Fin 1), i = ix2 r q := ⟨i 0, i 1, eq_ix2 i⟩
  rw [ref_scores_apply]
  generalize val_main_v77 (F := Ideal) (A0 m c) (A1 m c) (A2 m c) (A3 m c) (A4 m c) (A5 m c) (A6 m c) = E
  have hb1 : (fun j : Fin 64 => shapeCast S1x64 (A8 m c : FVec Ideal S64 .f32) shapeCasts_S64_S1x64 (ix2 (0 : Fin 1) j))
      = fun j => (A8 m c : FVec Ideal S64 .f32) (ix1 j) := funext fun j => shapeCast_a_1a_apply _ _ 0 j
  have hb2 : (fun j : Fin 32 => shapeCast S1x32 (A10 m c : FVec Ideal S32 .f32) shapeCasts_S32_S1x32 (ix2 (0 : Fin 1) j))
      = fun j => (A10 m c : FVec Ideal S32 .f32) (ix1 j) := funext fun j => shapeCast_a_1a_apply _ _ 0 j
  have hb3 : (fun j : Fin 1 => shapeCast S1x1 (A12 m c : FVec Ideal S1 .f32) shapeCasts_S1_S1x1 (ix2 (0 : Fin 1) j))
      = fun j => (A12 m c : FVec Ideal S1 .f32) (ix1 j) := funext fun j => shapeCast_a_1a_apply _ _ 0 j
  show Cert.EdgeMlp.score (fun k => E (ix2 r k)) (fun k j => (A7 m c : FVec Ideal S128x64 .f32) (ix2 k j))
      (fun j : Fin 64 => shapeCast S1x64 (A8 m c : FVec Ideal S64 .f32) shapeCasts_S64_S1x64 (ix2 (0 : Fin 1) j))
      (fun k j => (A9 m c : FVec Ideal S64x32 .f32) (ix2 k j))
      (fun j : Fin 32 => shapeCast S1x32 (A10 m c : FVec Ideal S32 .f32) shapeCasts_S32_S1x32 (ix2 (0 : Fin 1) j))
      (fun k j => (A11 m c : FVec Ideal S32x1 .f32) (ix2 k j))
      (fun j : Fin 1 => shapeCast S1x1 (A12 m c : FVec Ideal S1 .f32) shapeCasts_S1_S1x1 (ix2 (0 : Fin 1) j)) = _
  rw [hb1, hb2, hb3]

end Cert.KernelIdeal.Stage2

end
-- ==== Proof.lean ====
/-
  A graph network for link prediction, with its dense products as tiled kernels, against its reference.

  Both programs compute, for 1600000 edges over 100000 nodes: the degree normalisations (scatter-added ones, clipped below
  at one, inverse square roots); two graph-convolution layers, each "scale the node features by the out-degree column,
  multiply by a weight matrix, gather the rows at the edges' sources, scatter-add them at the destinations, scale by the
  in-degree column, add a bias" (the first followed by ReLU); and, for every edge, a three-layer predictor with a logistic
  output applied to its two endpoints' embeddings side by side. The reference does all of it with host operations. The
  kernel's program does the gathers, scatter-adds and elementwise steps with the same host operations, and the three dense
  stages in tiled regions: the two node-wise products ten thousand rows at a time, the edge predictor eight thousand edges at
  a time, each tile multiplied into a zero accumulator after a change of float format.

  On the extended reals a change of float format is the identity, a product into a zero accumulator and a host matrix
  product are the same sums, and every dense stage is row-wise — row r of its result depends on its input only through row
  r — so the tiles' results are the blocks of one whole-array function, which is the reference's. The logistic function as
  one operation and as 1 / (1 + exp (-s)) are one function. No step uses distributivity or cancellation, so the finiteness
  of the inputs is not needed. The equality is carried through the program stage by stage: the first product, the second
  product, the scores (Proof/Stage0.lean, Stage1.lean, Stage2.lean), over each region's result as a whole-array function
  (Proof/Region0.lean, Region1.lean, Region2.lean) and the predictor on one edge (Proof/EdgeMlp.lean).
-/
import proofs.«114246_j46600395161977_1_alg».proof.Defs
import proofs.«114246_j46600395161977_1_alg».proof.Proof.Gen.Kernel
import proofs.«114246_j46600395161977_1_alg».proof.Proof.Gen.Kernel.Skeleton
import proofs.«114246_j46600395161977_1_alg».proof.Proof.Gen.Kernel.Launch
import proofs.«114246_j46600395161977_1_alg».proof.Proof.Gen.Kernel.Points
import proofs.«114246_j46600395161977_1_alg».proof.Proof.Gen.Kernel.Frame
import proofs.«114246_j46600395161977_1_alg».proof.Proof.Gen.KernelIdeal
import proofs.«114246_j46600395161977_1_alg».proof.Proof.Gen.KernelIdeal.Skeleton
import proofs.«114246_j46600395161977_1_alg».proof.Proof.Gen.KernelIdeal.Launch
import proofs.«114246_j46600395161977_1_alg».proof.Proof.Gen.KernelIdeal.Points
import proofs.«114246_j46600395161977_1_alg».proof.Proof.Gen.KernelIdeal.Frame
import proofs.«114246_j46600395161977_1_alg».proof.Proof.Gen.ReferenceIdeal
import proofs.«114246_j46600395161977_1_alg».proof.Proof.Gen.ReferenceIdeal.Run
import proofs.«114246_j46600395161977_1_alg».proof.Proof.Gen.ReferenceIdeal.Read
import proofs.«114246_j46600395161977_1_alg».proof.Proof.Gen.Pre_finite_inputs
import proofs.«114246_j46600395161977_1_alg».proof.Proof.KernelRun
import proofs.«114246_j46600395161977_1_alg».proof.Proof.Stage2
import Idealize.ShloMosaic.Adequacy
import Idealize.ShloMosaic.Init

noncomputable section

open Idealize.ShloMosaic Idealize.ShloMosaic.TcCoe Idealize.SL.Sem

namespace Cert.KernelIdeal.Result

open Cert.KernelIdeal

/-- The idealized kernel's program runs, its result array ends at the reference's result as a function of the argument
    arrays, and the arguments end unchanged: the run with the result named, and the three stages. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v76) = Cert.ReferenceIdeal.Read.val_main_v97 (F := Ideal) (Cert.KernelIdeal.Stage0.A0 m c) (Cert.KernelIdeal.Stage0.A1 m c) (Cert.KernelIdeal.Stage0.A2 m c) (Cert.KernelIdeal.Stage0.A3 m c) (Cert.KernelIdeal.Stage0.A4 m c) (Cert.KernelIdeal.Stage0.A5 m c) (Cert.KernelIdeal.Stage0.A6 m c) (Cert.KernelIdeal.Stage0.A7 m c) (Cert.KernelIdeal.Stage0.A8 m c) (Cert.KernelIdeal.Stage0.A9 m c) (Cert.KernelIdeal.Stage0.A10 m c) (Cert.KernelIdeal.Stage0.A11 m c) (Cert.KernelIdeal.Stage0.A12 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c).1.trans (Cert.KernelIdeal.Stage2.scores_exit m ρ c), (h c).2⟩)
    (Cert.KernelIdeal.RunResult.run_result (F := Ideal) m ρ)

end Cert.KernelIdeal.Result

namespace Cert.Proof

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the same result array: the kernel's at the reference's
    result as a function of its arguments, the reference's at that function of its own, equal, arguments. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12⟩ := hagree c
  rw [Cert.ReferenceIdeal.Read.val_main_v97_eq, e0, e1, e2, e3, e4, e5, e6, e7, e8, e9, e10, e11, e12]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
